-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x4 : Shape := ⟨3, ![16, 900, 4]⟩
abbrev S1600x4 : Shape := ⟨2, ![1600, 4]⟩
abbrev S1600 : Shape := ⟨1, ![1600]⟩
abbrev S_ : Shape := ⟨0, ![]⟩

class Facts : Prop where
  bcast_S_S16x900x4 : S_.BroadcastsInDim S16x900x4 (![] : Fin 0 → Fin S16x900x4.rank)
  reducesTo_S16x900x4_S_d0_1_2 : S16x900x4.ReducesTo [0, 1, 2] S_
  h_S_ : 0 < S_.numel
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_

variable [Facts]

def fn_part1 {F : FTy → Type} [FloatOps F] (main_arg3 : IVec S1600 32) (main_v13 : IVec S_ 1) (main_v15 : IVec S1600 1) (main_c_5 : IVec S_ 1) : IVec S_ 1 :=
  let main_v16 : IVec S_ 1 := (fun x v => Host.reduce IntOp.andi x v reducesTo_S1600_S_d0 h_S_) main_v15 main_c_5
  let main_v17 : IVec S_ 1 := andi main_v13 main_v16
  let main_c_6 : IVec S_ 32 := constantI S_ 32 4#32
  let main_v18 : IVec S1600 32 := broadcastInDim S1600 ![] bcast_S_S1600 main_c_6
  let main_v19 : IVec S1600 1 := cmpi .slt main_arg3 main_v18
  let main_c_7 : IVec S_ 1 := constantI S_ 1 1#1
  let main_v20 : IVec S_ 1 := (fun x v => Host.reduce IntOp.andi x v reducesTo_S1600_S_d0 h_S_) main_v19 main_c_7
  let main_v21 : IVec S_ 1 := andi main_v17 main_v20
  main_v21

def fn {F : FTy → Type} [FloatOps F] (main_arg0 : FVec F S16x900x4 .f32) (main_arg1 : FVec F S16x900x4 .f32) (main_arg2 : FVec F S1600x4 .f32) (main_arg3 : IVec S1600 32) : IVec S_ 1 :=
  let main_v0 : FVec F S16x900x4 .f32 := Host.absf main_arg0
  let main_cst : FVec F S_ .f32 := constant S_ .f32 0x7F800000#32
  let main_v1 : FVec F S16x900x4 .f32 := broadcastInDim S16x900x4 ![] bcast_S_S16x900x4 main_cst
  let main_v2 : IVec S16x900x4 1 := cmpf .olt main_v0 main_v1
  let main_c : IVec S_ 1 := constantI S_ 1 1#1
  let main_v3 : IVec S_ 1 := (fun x v => Host.reduce IntOp.andi x v reducesTo_S16x900x4_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg2
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg3 main_v14
  let main_c_5 : IVec S_ 1 := constantI S_ 1 1#1
  fn_part1 (F := F) main_arg3 main_v13 main_v15 main_c_5
-- ==== Kernel.lean ====
abbrev S16x900x4 : Shape := ⟨3, ![16, 900, 4]⟩
abbrev S1600x4 : Shape := ⟨2, ![1600, 4]⟩
abbrev S1600 : Shape := ⟨1, ![1600]⟩
abbrev S14400x4 : Shape := ⟨2, ![14400, 4]⟩
abbrev S4 : Shape := ⟨1, ![4]⟩
abbrev S1600x1 : Shape := ⟨2, ![1600, 1]⟩
abbrev S1x4 : Shape := ⟨2, ![1, 4]⟩
abbrev S_ : Shape := ⟨0, ![]⟩
abbrev S3x1600 : Shape := ⟨2, ![3, 1600]⟩
abbrev S4x1600 : Shape := ⟨2, ![4, 1600]⟩
abbrev S1x1600 : Shape := ⟨2, ![1, 1600]⟩
abbrev S16x1600 : Shape := ⟨2, ![16, 1600]⟩
abbrev S14400x1600 : Shape := ⟨2, ![14400, 1600]⟩
abbrev S480x4 : Shape := ⟨2, ![480, 4]⟩
abbrev S480x1600 : Shape := ⟨2, ![480, 1600]⟩
abbrev S480x1 : Shape := ⟨2, ![480, 1]⟩
abbrev S16x900x1600 : Shape := ⟨3, ![16, 900, 1600]⟩

abbrev nBuf : Space → Nat
  | .hbm => 52
  | .vmem => 7
  | .smem => 0
  | _ => 0

abbrev bufTy : (tb : Table) → Fin (tcTables nBuf tb) → BufTy
  | .hbm, ⟨0, _⟩ => ⟨S16x900x4, .f32⟩
  | .hbm, ⟨1, _⟩ => ⟨S16x900x4, .f32⟩
  | .hbm, ⟨2, _⟩ => ⟨S1600x4, .f32⟩
  | .hbm, ⟨3, _⟩ => ⟨S1600, .i32⟩
  | .hbm, ⟨4, _⟩ => ⟨S14400x4, .f32⟩
  | .hbm, ⟨5, _⟩ => ⟨S14400x4, .f32⟩
  | .hbm, ⟨6, _⟩ => ⟨S4, .i32⟩
  | .hbm, ⟨7, _⟩ => ⟨S1600x1, .i32⟩
  | .hbm, ⟨8, _⟩ => ⟨S1x4, .i32⟩
  | .hbm, ⟨9, _⟩ => ⟨S1600x4, .i32⟩
  | .hbm, ⟨10, _⟩ => ⟨S1600x4, .i32⟩
  | .hbm, ⟨11, _⟩ => ⟨S1600x4, .i1⟩
  | .hbm, ⟨12, _⟩ => ⟨S1600x4, .f32⟩
  | .hbm, ⟨13, _⟩ => ⟨S1600x1, .f32⟩
  | .hbm, ⟨14, _⟩ => ⟨S1600, .f32⟩
  | .hbm, ⟨15, _⟩ => ⟨S1600x1, .f32⟩
  | .hbm, ⟨16, _⟩ => ⟨S1600, .f32⟩
  | .hbm, ⟨17, _⟩ => ⟨S1600x1, .f32⟩
  | .hbm, ⟨18, _⟩ => ⟨S1600, .f32⟩
  | .hbm, ⟨19, _⟩ => ⟨S1600x1, .f32⟩
  | .hbm, ⟨20, _⟩ => ⟨S1600, .f32⟩
  | .hbm, ⟨21, _⟩ => ⟨S_, .f32⟩
  | .hbm, ⟨22, _⟩ => ⟨S1600, .f32⟩
  | .hbm, ⟨23, _⟩ => ⟨S1600, .f32⟩
  | .hbm, ⟨24, _⟩ => ⟨S1600, .f32⟩
  | .hbm, ⟨25, _⟩ => ⟨S_, .f32⟩
  | .hbm, ⟨26, _⟩ => ⟨S1600, .f32⟩
  | .hbm, ⟨27, _⟩ => ⟨S1600, .f32⟩
  | .hbm, ⟨28, _⟩ => ⟨S1600, .f32⟩
  | .hbm, ⟨29, _⟩ => ⟨S_, .f32⟩
  | .hbm, ⟨30, _⟩ => ⟨S1600, .f32⟩
  | .hbm, ⟨31, _⟩ => ⟨S1600, .f32⟩
  | .hbm, ⟨32, _⟩ => ⟨S1600, .f32⟩
  | .hbm, ⟨33, _⟩ => ⟨S_, .f32⟩
  | .hbm, ⟨34, _⟩ => ⟨S1600, .f32⟩
  | .hbm, ⟨35, _⟩ => ⟨S1600, .f32⟩
  | .hbm, ⟨36, _⟩ => ⟨S1600, .f32⟩
  | .hbm, ⟨37, _⟩ => ⟨S1600, .f32⟩
  | .hbm, ⟨38, _⟩ => ⟨S1600, .f32⟩
  | .hbm, ⟨39, _⟩ => ⟨S1600, .f32⟩
  | .hbm, ⟨40, _⟩ => ⟨S_, .f32⟩
  | .hbm, ⟨41, _⟩ => ⟨S3x1600, .f32⟩
  | .hbm, ⟨42, _⟩ => ⟨S4x1600, .f32⟩
  | .hbm, ⟨43, _⟩ => ⟨S4x1600, .f32⟩
  | .hbm, ⟨44, _⟩ => ⟨S1x1600, .f32⟩
  | .hbm, ⟨45, _⟩ => ⟨S1x1600, .f32⟩
  | .hbm, ⟨46, _⟩ => ⟨S1x1600, .f32⟩
  | .hbm, ⟨47, _⟩ => ⟨S1x1600, .f32⟩
  | .hbm, ⟨48, _⟩ => ⟨S1x1600, .f32⟩
  | .hbm, ⟨49, _⟩ => ⟨S16x1600, .f32⟩
  | .hbm, ⟨50, _⟩ => ⟨S14400x1600, .f32⟩
  | .hbm, ⟨51, _⟩ => ⟨S16x900x1600, .f32⟩
  | .local _ .vmem, ⟨0, _⟩ => ⟨S480x4, .f32⟩
  | .local _ .vmem, ⟨1, _⟩ => ⟨S480x4, .f32⟩
  | .local _ .vmem, ⟨2, _⟩ => ⟨S480x4, .f32⟩
  | .local _ .vmem, ⟨3, _⟩ => ⟨S480x4, .f32⟩
  | .local _ .vmem, ⟨4, _⟩ => ⟨S16x1600, .f32⟩
  | .local _ .vmem, ⟨5, _⟩ => ⟨S480x1600, .f32⟩
  | .local _ .vmem, ⟨6, _⟩ => ⟨S480x1600, .f32⟩
  | _, _ => ⟨S16x900x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S480x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x900x4_S14400x4 : S16x900x4.ShapeCasts S14400x4
  bcast_S1600_S1600x1_0 : S1600.BroadcastsInDim S1600x1 (![0] : Fin 1 → Fin S1600x1.rank)
  bcast_S4_S1x4_1 : S4.BroadcastsInDim S1x4 (![1] : Fin 1 → Fin S1x4.rank)
  bcast_S1600x1_S1600x4_0_1 : S1600x1.BroadcastsInDim S1600x4 (![0, 1] : Fin 2 → Fin S1600x4.rank)
  bcast_S1x4_S1600x4_0_1 : S1x4.BroadcastsInDim S1600x4 (![0, 1] : Fin 2 → Fin S1600x4.rank)
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600 : S_.BroadcastsInDim S1600 (![] : Fin 0 → Fin S1600.rank)
  bcast_S_S3x1600 : S_.BroadcastsInDim S3x1600 (![] : Fin 0 → Fin S3x1600.rank)
  transposes_S1600x4_S4x1600_1_0 : S1600x4.Transposes [1, 0] S4x1600
  bcast_S1600_S1x1600_1 : S1600.BroadcastsInDim S1x1600 (![1] : Fin 1 → Fin S1x1600.rank)
  concatenates_S4x1600_S4x1600_S1x1600_S1x1600_S1x1600_S1x1600_S1x1600_S3x1600_S16x1600_d0 : Shape.Concatenates [S4x1600, S4x1600, S1x1600, S1x1600, S1x1600, S1x1600, S1x1600, S3x1600] S16x1600 0
  inb_S480x4_S480x4_0_0 : ∀ a, (![0, 0] : Fin 2 → Nat) a + S480x4.size a ≤ S480x4.size a
  h_S480x4 : 0 < S480x4.numel
  shapeCasts_S480x4_S480x4 : S480x4.ShapeCasts S480x4
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  inb_S16x1600_S16x1600_0_0 : ∀ a, (![0, 0] : Fin 2 → Nat) a + S16x1600.size a ≤ S16x1600.size a
  h_S16x1600 : 0 < S16x1600.numel
  shapeCasts_S16x1600_S16x1600 : S16x1600.ShapeCasts S16x1600
  slices_S16x1600_o0_0_S1x1600 : S16x1600.Slices ![0, 0] S1x1600
  slices_S16x1600_o1_0_S1x1600 : S16x1600.Slices ![1, 0] S1x1600
  slices_S16x1600_o2_0_S1x1600 : S16x1600.Slices ![2, 0] S1x1600
  slices_S16x1600_o3_0_S1x1600 : S16x1600.Slices ![3, 0] S1x1600
  slices_S16x1600_o4_0_S4x1600 : S16x1600.Slices ![4, 0] S4x1600
  slices_S16x1600_o8_0_S1x1600 : S16x1600.Slices ![8, 0] S1x1600
  slices_S16x1600_o9_0_S1x1600 : S16x1600.Slices ![9, 0] S1x1600
  slices_S16x1600_o10_0_S1x1600 : S16x1600.Slices ![10, 0] S1x1600
  slices_S16x1600_o11_0_S1x1600 : S16x1600.Slices ![11, 0] S1x1600
  slices_S16x1600_o12_0_S1x1600 : S16x1600.Slices ![12, 0] S1x1600
  broadcasts_S480x1_S480x1600 : S480x1.Broadcasts S480x1600
  broadcasts_S1x1600_S480x1600 : S1x1600.Broadcasts S480x1600
  inb_S480x1600_S480x1600_0_0 : ∀ a, (![0, 0] : Fin 2 → Nat) a + S480x1600.size a ≤ S480x1600.size a
  h_S480x1600 : 0 < S480x1600.numel
  shapeCasts_S14400x1600_S16x900x1600 : S14400x1600.ShapeCasts S16x900x1600
  dot_S480x4_S4x1600_S480x1600_1_0_0_1_n_n_wf : DotDims.WF S480x4 S4x1600 S480x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x4.size a ≤ S14400x4.size a
  hwx0_0 : ∀ i : grid0.Coords, EltTy.bits .f32 = 32 ∨ (Rect.block (s := S14400x4) S480x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S14400x4.size a
  hwx0_1 : ∀ i : grid0.Coords, EltTy.bits .f32 = 32 ∨ (Rect.block (s := S14400x4) S480x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1600.size a ≤ S16x1600.size a
  hwx0_2 : ∀ i : grid0.Coords, EltTy.bits .f32 = 32 ∨ (Rect.block (s := S16x1600) S16x1600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S480x1600.size a ≤ S14400x1600.size a
  hwx0_3 : ∀ i : grid0.Coords, EltTy.bits .f32 = 32 ∨ (Rect.block (s := S14400x1600) S480x1600.size (cc0_transform_3 i) (hinb0_3 i)).WholeWords (EltTy.packing .f32)

variable [Facts₀]

def dot_S480x4_S4x1600_S480x1600_1_0_0_1_n_n : DotDims S480x4 S4x1600 S480x1600 where
  lhsContracting := [1]
  rhsContracting := [0]
  lhsNonContracting := [0]
  rhsNonContracting := [1]
  lhsBatch := []
  rhsBatch := []
  wf := dot_S480x4_S4x1600_S480x1600_1_0_0_1_n_n_wf

abbrev win0_0 : Pipeline.Window sig grid0 :=
  Pipeline.Window.ofSpec (Memref.whole main_v0) S480x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S16x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S480x1600.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x900x4 : Shape := ⟨3, ![16, 900, 4]⟩
abbrev S1600x4 : Shape := ⟨2, ![1600, 4]⟩
abbrev S1600 : Shape := ⟨1, ![1600]⟩
abbrev S14400x4 : Shape := ⟨2, ![14400, 4]⟩
abbrev S_ : Shape := ⟨0, ![]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x1 : Shape := ⟨2, ![14400, 1]⟩
abbrev S14400 : Shape := ⟨1, ![14400]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 228
  | .vmem => 0
  | .smem => 0
  | _ => 0

abbrev hbmTy0_0 (i : Nat) : BufTy := match i % 128 with
  | 0 => ⟨S16x900x4, .f32⟩
  | 1 => ⟨S16x900x4, .f32⟩
  | 2 => ⟨S1600x4, .f32⟩
  | 3 => ⟨S1600, .i32⟩
  | 4 => ⟨S14400x4, .f32⟩
  | 5 => ⟨S14400x4, .f32⟩
  | 6 => ⟨S14400x4, .f32⟩
  | 7 => ⟨S_, .f32⟩
  | 8 => ⟨S14400x4, .f32⟩
  | 9 => ⟨S14400x4, .f32⟩
  | 10 => ⟨S_, .f32⟩
  | 11 => ⟨S14400x4, .f32⟩
  | 12 => ⟨S14400x4, .f32⟩
  | 13 => ⟨S14400x4, .f32⟩
  | 14 => ⟨S_, .f32⟩
  | 15 => ⟨S14400x4, .f32⟩
  | 16 => ⟨S14400x4, .f32⟩
  | 17 => ⟨S_, .f32⟩
  | 18 => ⟨S14400x4, .f32⟩
  | 19 => ⟨S14400x4, .f32⟩
  | 20 => ⟨S_, .f32⟩
  | 21 => ⟨S14400x4, .f32⟩
  | 22 => ⟨S14400x4, .f32⟩
  | 23 => ⟨S_, .f32⟩
  | 24 => ⟨S14400x4, .f32⟩
  | 25 => ⟨S14400x4, .f32⟩
  | 26 => ⟨S14400x4, .f32⟩
  | 27 => ⟨S14400x4, .f32⟩
  | 28 => ⟨S14400x4, .f32⟩
  | 29 => ⟨S_, .f32⟩
  | 30 => ⟨S14400x4, .f32⟩
  | 31 => ⟨S14400x4, .f32⟩
  | 32 => ⟨S_, .f32⟩
  | 33 => ⟨S14400x4, .f32⟩
  | 34 => ⟨S14400x4, .f32⟩
  | 35 => ⟨S_, .f32⟩
  | 36 => ⟨S14400x4, .f32⟩
  | 37 => ⟨S14400x4, .f32⟩
  | 38 => ⟨S_, .f32⟩
  | 39 => ⟨S14400x4, .f32⟩
  | 40 => ⟨S14400x4, .f32⟩
  | 41 => ⟨S14400x4, .f32⟩
  | 42 => ⟨S14400x4, .f32⟩
  | 43 => ⟨S14400x4, .f32⟩
  | 44 => ⟨S_, .i32⟩
  | 45 => ⟨S1600, .i32⟩
  | 46 => ⟨S1600, .i1⟩
  | 47 => ⟨S_, .i32⟩
  | 48 => ⟨S1600, .i32⟩
  | 49 => ⟨S1600, .i32⟩
  | 50 => ⟨S1600, .i32⟩
  | 51 => ⟨S1600x1, .i32⟩
  | 52 => ⟨S14400x1600, .f32⟩
  | 53 => ⟨S_, .i32⟩
  | 54 => ⟨S1600, .i32⟩
  | 55 => ⟨S1600, .i1⟩
  | 56 => ⟨S_, .i32⟩
  | 57 => ⟨S1600, .i32⟩
  | 58 => ⟨S1600, .i32⟩
  | 59 => ⟨S1600, .i32⟩
  | 60 => ⟨S1600x1, .i32⟩
  | 61 => ⟨S14400x1600, .f32⟩
  | 62 => ⟨S14400x1600, .f32⟩
  | 63 => ⟨S14400x1x4, .f32⟩
  | 64 => ⟨S1x1600x4, .f32⟩
  | 65 => ⟨S14400x1600x4, .f32⟩
  | 66 => ⟨S14400x1600x4, .f32⟩
  | 67 => ⟨S14400x1600x4, .f32⟩
  | 68 => ⟨S14400x1600x4, .f32⟩
  | 69 => ⟨S_, .f32⟩
  | 70 => ⟨S14400x1600, .f32⟩
  | 71 => ⟨S14400x1, .f32⟩
  | 72 => ⟨S14400, .f32⟩
  | 73 => ⟨S14400x1, .f32⟩
  | 74 => ⟨S14400, .f32⟩
  | 75 => ⟨S14400x1, .f32⟩
  | 76 => ⟨S14400, .f32⟩
  | 77 => ⟨S14400x1, .f32⟩
  | 78 => ⟨S14400, .f32⟩
  | 79 => ⟨S_, .f32⟩
  | 80 => ⟨S14400, .f32⟩
  | 81 => ⟨S14400, .f32⟩
  | 82 => ⟨S14400, .f32⟩
  | 83 => ⟨S_, .f32⟩
  | 84 => ⟨S14400, .f32⟩
  | 85 => ⟨S14400, .f32⟩
  | 86 => ⟨S14400, .f32⟩
  | 87 => ⟨S_, .f32⟩
  | 88 => ⟨S14400, .f32⟩
  | 89 => ⟨S14400, .f32⟩
  | 90 => ⟨S14400, .f32⟩
  | 91 => ⟨S_, .f32⟩
  | 92 => ⟨S14400, .f32⟩
  | 93 => ⟨S14400, .f32⟩
  | 94 => ⟨S14400, .f32⟩
  | 95 => ⟨S14400x1, .f32⟩
  | 96 => ⟨S14400x1, .f32⟩
  | 97 => ⟨S14400x1, .f32⟩
  | 98 => ⟨S14400x1, .f32⟩
  | 99 => ⟨S14400x4, .f32⟩
  | 100 => ⟨S1600x1, .f32⟩
  | 101 => ⟨S1600, .f32⟩
  | 102 => ⟨S1600x1, .f32⟩
  | 103 => ⟨S1600, .f32⟩
  | 104 => ⟨S1600x1, .f32⟩
  | 105 => ⟨S1600, .f32⟩
  | 106 => ⟨S1600x1, .f32⟩
  | 107 => ⟨S1600, .f32⟩
  | 108 => ⟨S_, .f32⟩
  | 109 => ⟨S1600, .f32⟩
  | 110 => ⟨S1600, .f32⟩
  | 111 => ⟨S1600, .f32⟩
  | 112 => ⟨S_, .f32⟩
  | 113 => ⟨S1600, .f32⟩
  | 114 => ⟨S1600, .f32⟩
  | 115 => ⟨S1600, .f32⟩
  | 116 => ⟨S_, .f32⟩
  | 117 => ⟨S1600, .f32⟩
  | 118 => ⟨S1600, .f32⟩
  | 119 => ⟨S1600, .f32⟩
  | 120 => ⟨S_, .f32⟩
  | 121 => ⟨S1600, .f32⟩
  | 122 => ⟨S1600, .f32⟩
  | 123 => ⟨S1600, .f32⟩
  | 124 => ⟨S1600x1, .f32⟩
  | 125 => ⟨S1600x1, .f32⟩
  | 126 => ⟨S1600x1, .f32⟩
  | 127 => ⟨S1600x1, .f32⟩
  | _ => ⟨S16x900x4, .f32⟩

abbrev hbmTy0_1 (i : Nat) : BufTy := match i % 128 with
  | 0 => ⟨S1600x4, .f32⟩
  | 1 => ⟨S14400x1, .f32⟩
  | 2 => ⟨S14400, .f32⟩
  | 3 => ⟨S14400x1, .f32⟩
  | 4 => ⟨S14400, .f32⟩
  | 5 => ⟨S14400, .f32⟩
  | 6 => ⟨S14400x1, .f32⟩
  | 7 => ⟨S14400, .f32⟩
  | 8 => ⟨S14400x1, .f32⟩
  | 9 => ⟨S14400, .f32⟩
  | 10 => ⟨S14400, .f32⟩
  | 11 => ⟨S14400, .f32⟩
  | 12 => ⟨S1600x1, .f32⟩
  | 13 => ⟨S1600, .f32⟩
  | 14 => ⟨S1600x1, .f32⟩
  | 15 => ⟨S1600, .f32⟩
  | 16 => ⟨S1600, .f32⟩
  | 17 => ⟨S1600x1, .f32⟩
  | 18 => ⟨S1600, .f32⟩
  | 19 => ⟨S1600x1, .f32⟩
  | 20 => ⟨S1600, .f32⟩
  | 21 => ⟨S1600, .f32⟩
  | 22 => ⟨S1600, .f32⟩
  | 23 => ⟨S14400x2, .f32⟩
  | 24 => ⟨S14400x1x2, .f32⟩
  | 25 => ⟨S1600x2, .f32⟩
  | 26 => ⟨S1x1600x2, .f32⟩
  | 27 => ⟨S14400x1600x2, .f32⟩
  | 28 => ⟨S14400x1600x2, .f32⟩
  | 29 => ⟨S14400x1600x2, .f32⟩
  | 30 => ⟨S14400x2, .f32⟩
  | 31 => ⟨S14400x1x2, .f32⟩
  | 32 => ⟨S1600x2, .f32⟩
  | 33 => ⟨S1x1600x2, .f32⟩
  | 34 => ⟨S14400x1600x2, .f32⟩
  | 35 => ⟨S14400x1600x2, .f32⟩
  | 36 => ⟨S14400x1600x2, .f32⟩
  | 37 => ⟨S14400x1600x2, .f32⟩
  | 38 => ⟨S_, .f32⟩
  | 39 => ⟨S_, .f32⟩
  | 40 => ⟨S14400x1600x2, .f32⟩
  | 41 => ⟨S14400x1600x2, .f32⟩
  | 42 => ⟨S14400x1600x1, .f32⟩
  | 43 => ⟨S14400x1600, .f32⟩
  | 44 => ⟨S14400x1600x1, .f32⟩
  | 45 => ⟨S14400x1600, .f32⟩
  | 46 => ⟨S14400x1600, .f32⟩
  | 47 => ⟨S14400x1, .f32⟩
  | 48 => ⟨S1x1600, .f32⟩
  | 49 => ⟨S14400x1600, .f32⟩
  | 50 => ⟨S14400x1600, .f32⟩
  | 51 => ⟨S14400x1600, .f32⟩
  | 52 => ⟨S14400x1600, .f32⟩
  | 53 => ⟨S_, .f32⟩
  | 54 => ⟨S14400x1600, .f32⟩
  | 55 => ⟨S14400x1600, .f32⟩
  | 56 => ⟨S14400x1600, .f32⟩
  | 57 => ⟨S14400x2, .f32⟩
  | 58 => ⟨S14400x1x2, .f32⟩
  | 59 => ⟨S1600x2, .f32⟩
  | 60 => ⟨S1x1600x2, .f32⟩
  | 61 => ⟨S14400x1600x2, .f32⟩
  | 62 => ⟨S14400x1600x2, .f32⟩
  | 63 => ⟨S14400x1600x2, .f32⟩
  | 64 => ⟨S14400x2, .f32⟩
  | 65 => ⟨S14400x1x2, .f32⟩
  | 66 => ⟨S1600x2, .f32⟩
  | 67 => ⟨S1x1600x2, .f32⟩
  | 68 => ⟨S14400x1600x2, .f32⟩
  | 69 => ⟨S14400x1600x2, .f32⟩
  | 70 => ⟨S14400x1600x2, .f32⟩
  | 71 => ⟨S14400x1600x2, .f32⟩
  | 72 => ⟨S_, .f32⟩
  | 73 => ⟨S_, .f32⟩
  | 74 => ⟨S14400x1600x2, .f32⟩
  | 75 => ⟨S14400x1600x2, .f32⟩
  | 76 => ⟨S14400x1600x1, .f32⟩
  | 77 => ⟨S14400x1600, .f32⟩
  | 78 => ⟨S14400x1600x1, .f32⟩
  | 79 => ⟨S14400x1600, .f32⟩
  | 80 => ⟨S14400x1600, .f32⟩
  | 81 => ⟨S14400x1600, .f32⟩
  | 82 => ⟨S_, .f32⟩
  | 83 => ⟨S14400x1600, .f32⟩
  | 84 => ⟨S14400x1600, .f32⟩
  | 85 => ⟨S14400x1600, .f32⟩
  | 86 => ⟨S14400x1600, .f32⟩
  | 87 => ⟨S14400x1600, .f32⟩
  | 88 => ⟨S_, .f32⟩
  | 89 => ⟨S14400x1600, .f32⟩
  | 90 => ⟨S14400x1600, .f32⟩
  | 91 => ⟨S_, .f32⟩
  | 92 => ⟨S14400x1600, .f32⟩
  | 93 => ⟨S14400x1600, .f32⟩
  | 94 => ⟨S14400x1600, .f32⟩
  | 95 => ⟨S_, .f32⟩
  | 96 => ⟨S14400x1600, .f32⟩
  | 97 => ⟨S14400x1600, .f32⟩
  | 98 => ⟨S14400x1600, .f32⟩
  | 99 => ⟨S16x900x1600, .f32⟩
  | _ => ⟨S16x900x4, .f32⟩

abbrev hbmTy (i : Nat) : BufTy := match i / 128 with
  | 0 => hbmTy0_0 i
  | 1 => hbmTy0_1 i
  | _ => ⟨S16x900x4, .f32⟩

abbrev bufTy : (tb : Table) → Fin (tcTables nBuf tb) → BufTy
  | .hbm, ⟨i, _⟩ => hbmTy i
  | _, _ => ⟨S16x900x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_17 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_18 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_19 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_20 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_21 : Ref sig .tc := ⟨.hbm, 166, rfl⟩
abbrev main_call0_v0 : Ref sig .tc := ⟨.hbm, 167, rfl⟩
abbrev main_call0_v1 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_cst_22 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_cst_23 : Ref sig .tc := ⟨.hbm, 200, rfl⟩
abbrev main_call1_v0 : Ref sig .tc := ⟨.hbm, 201, rfl⟩
abbrev main_call1_v1 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_cst_24 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_cst_25 : Ref sig .tc := ⟨.hbm, 216, rfl⟩
abbrev main_v181 : Ref sig .tc := ⟨.hbm, 217, rfl⟩
abbrev main_v182 : Ref sig .tc := ⟨.hbm, 218, rfl⟩
abbrev main_cst_26 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_cst_27 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩

abbrev nD : Nat := 1
abbrev τ : Topo := Topo.v7x

variable {F : FTy → Type} [FloatOps F]

class Facts₀ : Prop where
  shapeCasts_S16x900x4_S14400x4 : S16x900x4.ShapeCasts S14400x4
  bcast_S_S14400x4 : S_.BroadcastsInDim S14400x4 (![] : Fin 0 → Fin S14400x4.rank)
  bcast_S_S1600 : S_.BroadcastsInDim S1600 (![] : Fin 0 → Fin S1600.rank)
  bcast_S1600_S1600x1_0 : S1600.BroadcastsInDim S1600x1 (![0] : Fin 1 → Fin S1600x1.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  h_S_ : 0 < S_.numel
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  gather_S14400x4_S1600x1_S14400x1600_0_1_n_n_1_1_144001_wf : GatherDims.WF S14400x4 S1600x1 S14400x1600 [0] [1] [] [1] [] 1 ![14400, 1]

variable [Facts₀]

def gather_S14400x4_S1600x1_S14400x1600_0_1_n_n_1_1_144001 : GatherDims S14400x4 S1600x1 S14400x1600 where
  offsetDims := [0]
  collapsedSliceDims := [1]
  operandBatchingDims := []
  startIndicesBatchingDims := []
  startIndexMap := [1]
  indexVectorDim := 1
  sliceSizes := ![14400, 1]
  wf := gather_S14400x4_S1600x1_S14400x1600_0_1_n_n_1_1_144001_wf

class Facts : Prop extends Facts₀ where

variable [Facts]
-- ==== Proof.KBase.lean ====
/-
  The pipeline of the cost kernel, as data: the arrays as the region finds them, each window's block at a grid
  point, and what one grid point leaves in the output window's buffer.

  The program is host lines, one region over a grid of 30 points, one host line. The region has four windows: the
  flattened logits and the flattened query boxes, each cut into 30 row blocks of 480 rows; the 16 × 1600 table of
  target data, one block the same at every point; and the 14400 × 1600 result, cut into 30 row blocks. At a point the
  body loads the three input blocks whole and stores one 480 × 1600 value covering the output block, so the output
  buffer after the body is a single piece: `blockVal` of the three loads.
-/
import proofs.«415464_j68289980007125_3_alg».proof.Proof.Gen.Kernel.Launch
import proofs.«415464_j68289980007125_3_alg».proof.Proof.Gen.Kernel.Skeleton
import proofs.«415464_j68289980007125_3_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The arrays at the region's entry -/

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One grid point -/

/-- The whole 480 × 4 block, the whole 16 × 1600 block, the whole 480 × 1600 block: what the body loads and stores through. -/
abbrev rRows : Rect S480x4 := Rect.unit (s := S480x4) ![0, 0] S480x4.size inb_S480x4_S480x4_0_0
abbrev rTab : Rect S16x1600 := Rect.unit (s := S16x1600) ![0, 0] S16x1600.size inb_S16x1600_S16x1600_0_0
abbrev rOut : Rect S480x1600 := Rect.unit (s := S480x1600) ![0, 0] S480x1600.size inb_S480x1600_S480x1600_0_0

/-- The stored value as one function of the three loaded blocks: the body's named intermediate values composed in
    the order the body computes them (the logits block `v0`, the query boxes `v24`, the target table `v30`). -/
def blockVal (v0 v24 : Vec F S480x4 .f32) (v30 : Vec F S16x1600 .f32) : FVec F S480x1600 .f32 :=
  k0_pay1 (k0_pay11 v30) (k0_pay12 v30) (k0_pay13 v30) (k0_pay14 v30)
    (k0_pay19 (k0_pay4 v24) (k0_pay5 v24) (k0_pay6 v24) (k0_pay8 v30) (k0_pay9 v30) (k0_pay10 v30)
      (k0_pay16 v0 v30) (k0_pay17 v24) (k0_pay18 v30))
    (k0_pay20 (k0_pay3 v24) (k0_pay5 v24)) (k0_pay21 (k0_pay4 v24) (k0_pay6 v24))
    (k0_pay22 (k0_pay3 v24) (k0_pay5 v24)) (k0_pay23 (k0_pay4 v24) (k0_pay6 v24))
    (k0_pay24 (k0_pay3 v24) (k0_pay4 v24) (k0_pay5 v24) (k0_pay6 v24) (k0_pay11 v30) (k0_pay12 v30) (k0_pay13 v30) (k0_pay14 v30))
    (k0_pay25 (k0_pay3 v24) (k0_pay4 v24) (k0_pay5 v24) (k0_pay6 v24))
    (k0_pay26 (k0_pay15 v30))

/-- The output window's buffer after the body, from the three input blocks: its one store as a piece. -/
def outBlk (x0 x1 : Vec F S480x4 .f32) (x2 : Vec F S16x1600 .f32) : Vec F S480x1600 .f32 :=
  View.canon [⟨rOut, blockVal (View.ld x0 rRows) (View.ld x1 rRows) (View.ld x2 rTab)⟩]

/-- The one store covers the buffer. -/
theorem coverOut (p0 : Vec F S480x1600 .f32) (y : S480x1600.Idx) :
    ∃ pc ∈ ([⟨rOut, p0⟩] : List (View.Piece (Elt F) S480x1600 .f32)), y ∈ pc.1.set :=
  View.cover_of_tiled [⟨rOut, p0⟩] S480x1600.size (by rfl) y

/-! ## The proof data -/

/-- On core `c`: the arrays as the region finds them; after the body at point `t` each input's buffer at its block
    and the output's at `outBlk` of the input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlk (iblk m c 0 t) (iblk m c 1 t) (iblk m c 2 t) := by dsimp only [dats]

end Cert.Kernel.Hand

end
-- ==== Proof.KFrame.lean ====
/-
  The frame run of the cost kernel's program, for any float instance.

  The program is forty-six host lines (two reshapes of the arguments, the one-hot table of the labels, the target
  corners and areas, and the concatenation of it all into one 16 × 1600 table), one region over a grid of thirty
  points, and one reshape of the result. None of these lines writes an argument array, and no window of the region
  stages one, so each argument ends as it was launched. What is left to show for the library's launch theorem is
  local to one grid point: the body, handed the three input blocks, returns them untouched and leaves in the output
  window's buffer the single piece `outBlk` of them.
-/
import proofs.«415464_j68289980007125_3_alg».proof.Proof.KBase
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- No host line allocates a buffer: each writes a result buffer the program already has. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program read as: the lines before the region, the region, then the one line after it as the region's
    continuation. The region is entered at the contents `V`. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (by simp only [List.Forall]; exact hostOps0_sub) (by simp only [List.Forall]; exact hostOps0_fresh) main_chain

/-- The closing reshape touches only unscoped TensorCore buffers, and with no prefetched table those are exactly
    what a line after the region may touch. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop

/-- It writes its own result buffer, the 16 × 900 × 1600 array, which no window stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  obtain rfl : op = StableHlo.reshape main_v41 main_v42 rfl shapeCasts_S14400x1600_S16x900x1600 := by
    simpa [hostOps1] using hop
  intro w
  rw [StableHlo.reshape_writes, Finset.mem_singleton]
  fin_cases w <;> exact StableHlo.devRef_ne_of_ne (by decide)

/-! ## The argument arrays at the region's entry and at the end

No line before the region writes an argument array (each writes its own result buffer), so the region finds each as
launched; the line after it writes the reshaped result, and no window's array is an argument, so each ends as launched. -/

set_option maxHeartbeats 1000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.reshape_writes, StableHlo.nary_writes, Finset.mem_singleton]
    repeat' apply And.intro
    all_goals exact StableHlo.devRef_ne_of_ne (by decide)))

set_option maxHeartbeats 1000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.reshape_writes, StableHlo.nary_writes, Finset.mem_singleton]
    repeat' apply And.intro
    all_goals exact StableHlo.devRef_ne_of_ne (by decide)))

set_option maxHeartbeats 1000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.reshape_writes, StableHlo.nary_writes, Finset.mem_singleton]
    repeat' apply And.intro
    all_goals exact StableHlo.devRef_ne_of_ne (by decide)))

set_option maxHeartbeats 1000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The input windows' buffers when the body is called

An input window is uncut and never idle, and the body leaves its buffer as it found it; so at every point, fetched
there or not, the buffer holds the window's block there. The table window is fetched once, at the first point, and
its block index never moves afterwards: the same argument serves. -/

theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## One grid point: the body's triple -/

set_option maxHeartbeats 1000000 in
/-- The body on whole staging memrefs, the three inputs' at contents `x0 x1 x2` and the output's at anything, runs
    to a state with the inputs' as they were and the output's at `outBlk x0 x1 x2`. It loads the three inputs whole,
    loads the output buffer (a value nothing reads), and stores once, over the whole output buffer; the stored value
    is `blockVal` of the three loads, and a buffer overwritten whole reads back as the canonical form of that one piece. -/
theorem sound_kernel (c : Dev nD) (E : Set ℕ) (i : grid0.Coords)
    (arg1 : Memref sig .tc .vmem S480x4 .f32) (harg1 : arg1.IsWhole) (arg2 : Memref sig .tc .vmem S480x4 .f32) (harg2 : arg2.IsWhole)
    (arg3 : Memref sig .tc .vmem S16x1600 .f32) (harg3 : arg3.IsWhole) (arg4 : Memref sig .tc .vmem S480x1600 .f32) (harg4 : arg4.IsWhole)
    (x0 x1 : Vec F S480x4 .f32) (x2 : Vec F S16x1600 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__cost_kernel i arg1 harg1 arg2 harg2 arg3 harg3 arg4 harg4) K := by
  simp only [cc0__cost_kernel_eq_skeleton]; unfold cc0__cost_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The body obligation at a generic point -/

/-- What the pipeline hands the body at point `t`: the invariant, the core's debt, and the four windows' current
    staging buffers, each at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it takes back: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. The inputs' buffers hold their blocks, so the triple applies at those blocks; the
    invariant and the debt are the same before and after and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation: its conjunction over the four windows opened, it is `sound_body`. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program on the TensorCores
    terminates; at the end each array a window stages holds what the library computes from the proof data, and every
    other unscoped buffer what the closing reshape leaves of the region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim: the program runs, and its four argument arrays end as launched. An argument is unscoped and
    no window's array, so the run's post reads it off the contents after the closing reshape, which are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

/-- info: 'Cert.Kernel.Hand.frame' depends on axioms: [propext, Classical.choice, Quot.sound] -/
#guard_msgs in #print axioms frame

end Cert.Kernel.Hand

end
-- ==== Proof.KIBase.lean ====
/-
  The pipeline of the cost kernel, as data: the arrays as the region finds them, each window's block at a grid
  point, and what one grid point leaves in the output window's buffer.

  The program is host lines, one region over a grid of 30 points, one host line. The region has four windows: the
  flattened logits and the flattened query boxes, each cut into 30 row blocks of 480 rows; the 16 × 1600 table of
  target data, one block the same at every point; and the 14400 × 1600 result, cut into 30 row blocks. At a point the
  body loads the three input blocks whole and stores one 480 × 1600 value covering the output block, so the output
  buffer after the body is a single piece: `blockVal` of the three loads.
-/
import proofs.«415464_j68289980007125_3_alg».proof.Proof.Gen.KernelIdeal.Launch
import proofs.«415464_j68289980007125_3_alg».proof.Proof.Gen.KernelIdeal.Skeleton
import proofs.«415464_j68289980007125_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The arrays at the region's entry -/

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One grid point -/

/-- The whole 480 × 4 block, the whole 16 × 1600 block, the whole 480 × 1600 block: what the body loads and stores through. -/
abbrev rRows : Rect S480x4 := Rect.unit (s := S480x4) ![0, 0] S480x4.size inb_S480x4_S480x4_0_0
abbrev rTab : Rect S16x1600 := Rect.unit (s := S16x1600) ![0, 0] S16x1600.size inb_S16x1600_S16x1600_0_0
abbrev rOut : Rect S480x1600 := Rect.unit (s := S480x1600) ![0, 0] S480x1600.size inb_S480x1600_S480x1600_0_0

/-- The stored value as one function of the three loaded blocks: the body's named intermediate values composed in
    the order the body computes them (the logits block `v0`, the query boxes `v24`, the target table `v30`). -/
def blockVal (v0 v24 : Vec F S480x4 .f32) (v30 : Vec F S16x1600 .f32) : FVec F S480x1600 .f32 :=
  k0_pay1 (k0_pay11 v30) (k0_pay12 v30) (k0_pay13 v30) (k0_pay14 v30)
    (k0_pay19 (k0_pay4 v24) (k0_pay5 v24) (k0_pay6 v24) (k0_pay8 v30) (k0_pay9 v30) (k0_pay10 v30)
      (k0_pay16 v0 v30) (k0_pay17 v24) (k0_pay18 v30))
    (k0_pay20 (k0_pay3 v24) (k0_pay5 v24)) (k0_pay21 (k0_pay4 v24) (k0_pay6 v24))
    (k0_pay22 (k0_pay3 v24) (k0_pay5 v24)) (k0_pay23 (k0_pay4 v24) (k0_pay6 v24))
    (k0_pay24 (k0_pay3 v24) (k0_pay4 v24) (k0_pay5 v24) (k0_pay6 v24) (k0_pay11 v30) (k0_pay12 v30) (k0_pay13 v30) (k0_pay14 v30))
    (k0_pay25 (k0_pay3 v24) (k0_pay4 v24) (k0_pay5 v24) (k0_pay6 v24))
    (k0_pay26 (k0_pay15 v30))

/-- The output window's buffer after the body, from the three input blocks: its one store as a piece. -/
def outBlk (x0 x1 : Vec F S480x4 .f32) (x2 : Vec F S16x1600 .f32) : Vec F S480x1600 .f32 :=
  View.canon [⟨rOut, blockVal (View.ld x0 rRows) (View.ld x1 rRows) (View.ld x2 rTab)⟩]

/-- The one store covers the buffer. -/
theorem coverOut (p0 : Vec F S480x1600 .f32) (y : S480x1600.Idx) :
    ∃ pc ∈ ([⟨rOut, p0⟩] : List (View.Piece (Elt F) S480x1600 .f32)), y ∈ pc.1.set :=
  View.cover_of_tiled [⟨rOut, p0⟩] S480x1600.size (by rfl) y

/-! ## The proof data -/

/-- On core `c`: the arrays as the region finds them; after the body at point `t` each input's buffer at its block
    and the output's at `outBlk` of the input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlk (iblk m c 0 t) (iblk m c 1 t) (iblk m c 2 t) := by dsimp only [dats]

end Cert.KernelIdeal.Hand

end
-- ==== Proof.KIFrame.lean ====
/-
  The frame run of the cost kernel's program, for any float instance.

  The program is forty-six host lines (two reshapes of the arguments, the one-hot table of the labels, the target
  corners and areas, and the concatenation of it all into one 16 × 1600 table), one region over a grid of thirty
  points, and one reshape of the result. None of these lines writes an argument array, and no window of the region
  stages one, so each argument ends as it was launched. What is left to show for the library's launch theorem is
  local to one grid point: the body, handed the three input blocks, returns them untouched and leaves in the output
  window's buffer the single piece `outBlk` of them.
-/
import proofs.«415464_j68289980007125_3_alg».proof.Proof.KIBase
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- No host line allocates a buffer: each writes a result buffer the program already has. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program read as: the lines before the region, the region, then the one line after it as the region's
    continuation. The region is entered at the contents `V`. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (by simp only [List.Forall]; exact hostOps0_sub) (by simp only [List.Forall]; exact hostOps0_fresh) main_chain

/-- The closing reshape touches only unscoped TensorCore buffers, and with no prefetched table those are exactly
    what a line after the region may touch. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop

/-- It writes its own result buffer, the 16 × 900 × 1600 array, which no window stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  obtain rfl : op = StableHlo.reshape main_v41 main_v42 rfl shapeCasts_S14400x1600_S16x900x1600 := by
    simpa [hostOps1] using hop
  intro w
  rw [StableHlo.reshape_writes, Finset.mem_singleton]
  fin_cases w <;> exact StableHlo.devRef_ne_of_ne (by decide)

/-! ## The argument arrays at the region's entry and at the end

No line before the region writes an argument array (each writes its own result buffer), so the region finds each as
launched; the line after it writes the reshaped result, and no window's array is an argument, so each ends as launched. -/

set_option maxHeartbeats 1000000 in
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.reshape_writes, StableHlo.nary_writes, Finset.mem_singleton]
    repeat' apply And.intro
    all_goals exact StableHlo.devRef_ne_of_ne (by decide)))

set_option maxHeartbeats 1000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.reshape_writes, StableHlo.nary_writes, Finset.mem_singleton]
    repeat' apply And.intro
    all_goals exact StableHlo.devRef_ne_of_ne (by decide)))

set_option maxHeartbeats 1000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.reshape_writes, StableHlo.nary_writes, Finset.mem_singleton]
    repeat' apply And.intro
    all_goals exact StableHlo.devRef_ne_of_ne (by decide)))

set_option maxHeartbeats 1000000 in
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.nullary_writes, StableHlo.unary_writes, StableHlo.binary_writes, StableHlo.reshape_writes, StableHlo.nary_writes, Finset.mem_singleton]
    repeat' apply And.intro
    all_goals exact StableHlo.devRef_ne_of_ne (by decide)))

theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The input windows' buffers when the body is called

An input window is uncut and never idle, and the body leaves its buffer as it found it; so at every point, fetched
there or not, the buffer holds the window's block there. The table window is fetched once, at the first point, and
its block index never moves afterwards: the same argument serves. -/

theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## One grid point: the body's triple -/

set_option maxHeartbeats 1000000 in
/-- The body on whole staging memrefs, the three inputs' at contents `x0 x1 x2` and the output's at anything, runs
    to a state with the inputs' as they were and the output's at `outBlk x0 x1 x2`. It loads the three inputs whole,
    loads the output buffer (a value nothing reads), and stores once, over the whole output buffer; the stored value
    is `blockVal` of the three loads, and a buffer overwritten whole reads back as the canonical form of that one piece. -/
theorem sound_kernel (c : Dev nD) (E : Set ℕ) (i : grid0.Coords)
    (arg1 : Memref sig .tc .vmem S480x4 .f32) (harg1 : arg1.IsWhole) (arg2 : Memref sig .tc .vmem S480x4 .f32) (harg2 : arg2.IsWhole)
    (arg3 : Memref sig .tc .vmem S16x1600 .f32) (harg3 : arg3.IsWhole) (arg4 : Memref sig .tc .vmem S480x1600 .f32) (harg4 : arg4.IsWhole)
    (x0 x1 : Vec F S480x4 .f32) (x2 : Vec F S16x1600 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__cost_kernel i arg1 harg1 arg2 harg2 arg3 harg3 arg4 harg4) K := by
  simp only [cc0__cost_kernel_eq_skeleton]; unfold cc0__cost_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The body obligation at a generic point -/

/-- What the pipeline hands the body at point `t`: the invariant, the core's debt, and the four windows' current
    staging buffers, each at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it takes back: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. The inputs' buffers hold their blocks, so the triple applies at those blocks; the
    invariant and the debt are the same before and after and pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation: its conjunction over the four windows opened, it is `sound_body`. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program on the TensorCores
    terminates; at the end each array a window stages holds what the library computes from the proof data, and every
    other unscoped buffer what the closing reshape leaves of the region-entry contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame claim: the program runs, and its four argument arrays end as launched. An argument is unscoped and
    no window's array, so the run's post reads it off the contents after the closing reshape, which are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

/-- info: 'Cert.KernelIdeal.Hand.frame' depends on axioms: [propext, Classical.choice, Quot.sound] -/
#guard_msgs in #print axioms frame

end Cert.KernelIdeal.Hand

end
-- ==== Proof.Spec.lean ====
/-
  The matching cost of one (query, target) pair, as a function of extended reals.

  A query carries four class logits `l` and a box `p = (cx, cy, w, h)`; a target carries a box `t` of the same
  layout and a class label. The cost is the sum of three terms:
    * the focal classification term: with `s = σ(l c)` the class probability,
      `pos c = ¼ · (1 - s)² · (-log (s + ε))`, `neg c = ¾ · s² · (-log ((1 - s) + ε))`, the term is
      `pos c - neg c` at the target's class `c`;
    * the L1 distance between the two boxes, coordinate by coordinate;
    * minus the generalised IoU of the two boxes read as corner pairs `(cx ∓ w/2, cy ∓ h/2)`:
      `inter / (union + ε) - (hull - union) / (hull + ε)`.
  The constants are kept as the binary32 words both programs carry (½, ¼, ¾, 1, 0, ε = f32(1e-8)): the same word on
  both sides is never evaluated.

  Two readings of the classification term are stated: as the dot product of the four per-class differences with a
  0/1 indicator row of the label (`clsDot`), and as the selected entry (`clsSel`). `costDot` takes the target's
  corners and area as separate arguments (they may be tabulated once per target); `costSel` computes them from
  the target box and writes squares as powers, the L1 distance as a sum from zero, and carries unit weights.
-/
import Idealize.ShloMosaic.PureOps.Ideal
import Idealize.ShloMosaic.Lib.IdealHost

noncomputable section

namespace Cert.Cost

open Idealize.ShloMosaic

/-- The words of the constants. -/
abbrev W0 : EReal := Ideal.ofBits .f32 0x00000000#32
abbrev W1 : EReal := Ideal.ofBits .f32 0x3F800000#32
abbrev W2 : EReal := Ideal.ofBits .f32 0x40000000#32
abbrev Whalf : EReal := Ideal.ofBits .f32 0x3F000000#32
abbrev Wq : EReal := Ideal.ofBits .f32 0x3E800000#32
abbrev Wtq : EReal := Ideal.ofBits .f32 0x3F400000#32
abbrev Weps : EReal := Ideal.ofBits .f32 0x322BCC77#32

/-! ## The classification term -/

/-- The class probability. -/
def prob (l : EReal) : EReal := Ideal.logistic l

/-- `¾ · s² · (0 - log ((1 - s) + ε))`, the square as a product. -/
def negMul (l : EReal) : EReal := (Wtq * (prob l * prob l)) * (W0 - Ideal.log ((W1 - prob l) + Weps))
/-- `¼ · (1 - s)² · (0 - log (s + ε))`, the square as a product. -/
def posMul (l : EReal) : EReal := (Wq * ((W1 - prob l) * (W1 - prob l))) * (W0 - Ideal.log (prob l + Weps))
/-- The per-class difference, squares as products. -/
def difMul (l : EReal) : EReal := posMul l - negMul l

/-- The same with the squares as powers with exponent the word of 2 and the logarithm negated. -/
def negPow (l : EReal) : EReal := (Wtq * Ideal.pow (prob l) W2) * (-Ideal.log ((W1 - prob l) + Weps))
def posPow (l : EReal) : EReal := (Wq * Ideal.pow (W1 - prob l) W2) * (-Ideal.log (prob l + Weps))

/-- The indicator of "the label word `lab` is the class `k`", as the real 0 or 1. -/
def indic (lab : BitVec 32) (k : Fin 4) : EReal := (((if lab = BitVec.ofNat 32 k.val then 1 else 0 : ℕ) : ℝ) : EReal)

/-- The classification term as a dot product with an indicator row. -/
def clsDot (l : Fin 4 → EReal) (oh : Fin 4 → EReal) : EReal := ∑ c : Fin 4, difMul (l c) * oh c

/-! ## The L1 term -/

def absE (x : EReal) : EReal := max x (-x)

/-- Coordinate by coordinate, summed left to right. -/
def l1 (p t : Fin 4 → EReal) : EReal :=
  ((absE (p 0 - t 0) + absE (p 1 - t 1)) + absE (p 2 - t 2)) + absE (p 3 - t 3)

/-- The same as a sum from the zero word. -/
def l1Sum (p t : Fin 4 → EReal) : EReal := W0 + ∑ k : Fin 4, absE (p k - t k)

/-! ## The boxes -/

/-- The corners of a centre-and-size box. -/
def x1 (b : Fin 4 → EReal) : EReal := b 0 - Whalf * b 2
def y1 (b : Fin 4 → EReal) : EReal := b 1 - Whalf * b 3
def x2 (b : Fin 4 → EReal) : EReal := b 0 + Whalf * b 2
def y2 (b : Fin 4 → EReal) : EReal := b 1 + Whalf * b 3
/-- Its area from the corners. -/
def area (b : Fin 4 → EReal) : EReal := (x2 b - x1 b) * (y2 b - y1 b)

/-- The generalised IoU of a query box `p` against a target given by its corners `(a1, b1, a2, b2)` and area `ar`. -/
def giouC (p : Fin 4 → EReal) (a1 b1 a2 b2 ar : EReal) : EReal :=
  let inter := max (min (x2 p) a2 - max (x1 p) a1) W0 * max (min (y2 p) b2 - max (y1 p) b1) W0
  let union := (area p + ar) - inter
  let hull := max (max (x2 p) a2 - min (x1 p) a1) W0 * max (max (y2 p) b2 - min (y1 p) b1) W0
  Ideal.div inter (union + Weps) - Ideal.div (hull - union) (hull + Weps)

/-! ## The cost, two readings -/

/-- Dot-product reading, the target's corners and area supplied. -/
def costDot (l p t : Fin 4 → EReal) (oh : Fin 4 → EReal) (a1 b1 a2 b2 ar : EReal) : EReal :=
  (clsDot l oh + l1 p t) - giouC p a1 b1 a2 b2 ar

/-- Selected-entry reading with unit weights: `1·L1 + 1·(pos - neg) + 1·(-giou)`. -/
def costSel (l p t : Fin 4 → EReal) (k : Fin 4) : EReal :=
  ((W1 * l1Sum p t) + W1 * (posPow (l k) - negPow (l k))) + W1 * (-giouC p (x1 t) (y1 t) (x2 t) (y2 t) (area t))

end Cert.Cost

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.KIPayload.lean ====
/-
  What one grid point stores, read at a row and a column.

  The stored 480 × 1600 value is a composition of pure vector operations on three blocks: the logits of 480 queries,
  their boxes, and the 16 × 1600 table of target data. Read at row p and column q it depends only on row p of the two
  query blocks and column q of the table. Its three summands:
    * the product of the 480 × 4 matrix of per-class focal differences with rows 4 to 7 of the table into a zero
      accumulator, which at (p, q) is the sum over the four classes of the difference times the table's entry;
    * the L1 distance: the query's four box coordinates, each a 480 × 1 column spread along the row, against rows 0 to 3
      of the table, each a 1 × 1600 row spread down the column;
    * the generalised IoU from the query's corners (centre ∓ half the size, computed on columns) and the target's
      corners and area tabulated in rows 8 to 12.
  Each layout operation (a column or a row cut out of a block, a column or a row spread over the 480 × 1600 result) is
  read at coordinates by one small lemma; every other operation acts entry by entry. The result is the dot-product
  reading of the pair's cost in the specification.
-/
import proofs.«415464_j68289980007125_3_alg».proof.Proof.KIBase
import proofs.«415464_j68289980007125_3_alg».proof.Proof.Spec
import proofs.«415464_j68289980007125_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

variable {α : Type}

/-! ## Layout operations of this block shape, read at coordinates -/

/-- Column `c` of a 480 × 4 block, cut out as a 480 × 1 column, reads the block's column `c`. -/
theorem colAt (c : Nat) (v : S480x4.Idx → α) (h : S480x4.Slices ![0, c] S480x1) (p : Fin 480) (k : Fin 4) (hk : k.val = c) :
    extractStridedSlice S480x1 ![0, c] v h (ix2 p (0 : Fin 1)) = v (ix2 p k) :=
  slice2_axis1_apply c v h p (0 : Fin 1) k (by rw [hk]; rfl)

/-- Row `r` of the 16 × 1600 table, cut out as a 1 × 1600 row, reads the table's row `r`. -/
theorem rowAt (r : Nat) (v : S16x1600.Idx → α) (h : S16x1600.Slices ![r, 0] S1x1600) (q : Fin 1600) (k : Fin 16) (hk : k.val = r) :
    extractStridedSlice S1x1600 ![r, 0] v h (ix2 (0 : Fin 1) q) = v (ix2 k q) :=
  slice2_axis0_apply r v h (0 : Fin 1) q k (by rw [hk]; rfl)

/-- Rows 4 to 7 of the table, cut out as a 4 × 1600 matrix: row `c` of the cut is row `4 + c` of the table. -/
theorem rows4At (v : S16x1600.Idx → α) (h : S16x1600.Slices ![4, 0] S4x1600) (c : Fin 4) (q : Fin 1600) :
    extractStridedSlice S4x1600 ![4, 0] v h (ix2 c q) = v (ix2 (⟨4 + c.val, by omega⟩ : Fin 16) q) :=
  slice2_axis0_apply 4 v h c q _ rfl

/-- A 480 × 1 column spread over 1600 columns reads its row's one entry. -/
theorem bcol (v : S480x1.Idx → α) (h : S480x1.Broadcasts S480x1600) (p : Fin 480) (q : Fin 1600) :
    broadcastTo S480x1600 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A 1 × 1600 row spread over 480 rows reads its column's one entry. -/
theorem brow (v : S1x1600.Idx → α) (h : S1x1600.Broadcasts S480x1600) (p : Fin 480) (q : Fin 1600) :
    broadcastTo S480x1600 v h (ix2 p q) = v (ix2 (0 : Fin 1) q) :=
  broadcastTo_1b_ab_apply v h p q

/-- The absolute value at an index is the larger of the entry and its negation. -/
theorem absf_at {s : Shape} (a : FVec Ideal s .f32) (i : s.Idx) : absf a i = Cert.Cost.absE (a i) := rfl

/-! ## The stored block is the composed value -/

theorem outBlk_blockVal (x0 x1 : Vec Ideal S480x4 .f32) (x2 : Vec Ideal S16x1600 .f32) :
    outBlk (F := Ideal) x0 x1 x2 = blockVal x0 x1 x2 := by
  have hz : (![0, 0] : Fin 2 → Nat) = fun _ => 0 := by
    funext a; match a with | ⟨0, _⟩ => rfl | ⟨1, _⟩ => rfl
  unfold outBlk
  rw [View.canon_unit_zero hz, View.ld_unit_zero hz, View.ld_unit_zero hz, View.ld_unit_zero hz]

/-! ## The columns of the query boxes and the rows of the table -/

theorem pay2_eq (v : Vec Ideal S480x4 .f32) : k0_pay2 v = v := shapeCast_self v shapeCasts_S480x4_S480x4
theorem pay7_eq (v : Vec Ideal S16x1600 .f32) : k0_pay7 v = v := shapeCast_self v shapeCasts_S16x1600_S16x1600

theorem pay3_at (v : Vec Ideal S480x4 .f32) (p : Fin 480) : k0_pay3 v (ix2 p (0 : Fin 1)) = v (ix2 p (0 : Fin 4)) :=
  (colAt 0 (k0_pay2 v) slices_S480x4_o0_0_S480x1 p 0 rfl).trans (congrFun (pay2_eq v) _)
theorem pay4_at (v : Vec Ideal S480x4 .f32) (p : Fin 480) : k0_pay4 v (ix2 p (0 : Fin 1)) = v (ix2 p (1 : Fin 4)) :=
  (colAt 1 (k0_pay2 v) slices_S480x4_o0_1_S480x1 p 1 rfl).trans (congrFun (pay2_eq v) _)
theorem pay5_at (v : Vec Ideal S480x4 .f32) (p : Fin 480) : k0_pay5 v (ix2 p (0 : Fin 1)) = v (ix2 p (2 : Fin 4)) :=
  (colAt 2 (k0_pay2 v) slices_S480x4_o0_2_S480x1 p 2 rfl).trans (congrFun (pay2_eq v) _)
theorem pay6_at (v : Vec Ideal S480x4 .f32) (p : Fin 480) : k0_pay6 v (ix2 p (0 : Fin 1)) = v (ix2 p (3 : Fin 4)) :=
  (colAt 3 (k0_pay2 v) slices_S480x4_o0_3_S480x1 p 3 rfl).trans (congrFun (pay2_eq v) _)

theorem pay8_at (v : Vec Ideal S16x1600 .f32) (q : Fin 1600) : k0_pay8 v (ix2 (0 : Fin 1) q) = v (ix2 (1 : Fin 16) q) :=
  (rowAt 1 (k0_pay7 v) slices_S16x1600_o1_0_S1x1600 q 1 rfl).trans (congrFun (pay7_eq v) _)
theorem pay9_at (v : Vec Ideal S16x1600 .f32) (q : Fin 1600) : k0_pay9 v (ix2 (0 : Fin 1) q) = v (ix2 (2 : Fin 16) q) :=
  (rowAt 2 (k0_pay7 v) slices_S16x1600_o2_0_S1x1600 q 2 rfl).trans (congrFun (pay7_eq v) _)
theorem pay10_at (v : Vec Ideal S16x1600 .f32) (q : Fin 1600) : k0_pay10 v (ix2 (0 : Fin 1) q) = v (ix2 (3 : Fin 16) q) :=
  (rowAt 3 (k0_pay7 v) slices_S16x1600_o3_0_S1x1600 q 3 rfl).trans (congrFun (pay7_eq v) _)
theorem pay11_at (v : Vec Ideal S16x1600 .f32) (q : Fin 1600) : k0_pay11 v (ix2 (0 : Fin 1) q) = v (ix2 (8 : Fin 16) q) :=
  (rowAt 8 (k0_pay7 v) slices_S16x1600_o8_0_S1x1600 q 8 rfl).trans (congrFun (pay7_eq v) _)
theorem pay12_at (v : Vec Ideal S16x1600 .f32) (q : Fin 1600) : k0_pay12 v (ix2 (0 : Fin 1) q) = v (ix2 (9 : Fin 16) q) :=
  (rowAt 9 (k0_pay7 v) slices_S16x1600_o9_0_S1x1600 q 9 rfl).trans (congrFun (pay7_eq v) _)
theorem pay13_at (v : Vec Ideal S16x1600 .f32) (q : Fin 1600) : k0_pay13 v (ix2 (0 : Fin 1) q) = v (ix2 (10 : Fin 16) q) :=
  (rowAt 10 (k0_pay7 v) slices_S16x1600_o10_0_S1x1600 q 10 rfl).trans (congrFun (pay7_eq v) _)
theorem pay14_at (v : Vec Ideal S16x1600 .f32) (q : Fin 1600) : k0_pay14 v (ix2 (0 : Fin 1) q) = v (ix2 (11 : Fin 16) q) :=
  (rowAt 11 (k0_pay7 v) slices_S16x1600_o11_0_S1x1600 q 11 rfl).trans (congrFun (pay7_eq v) _)
theorem pay15_at (v : Vec Ideal S16x1600 .f32) (q : Fin 1600) : k0_pay15 v (ix2 (0 : Fin 1) q) = v (ix2 (12 : Fin 16) q) :=
  (rowAt 12 (k0_pay7 v) slices_S16x1600_o12_0_S1x1600 q 12 rfl).trans (congrFun (pay7_eq v) _)

theorem pay17_at (v : Vec Ideal S480x4 .f32) (p : Fin 480) (q : Fin 1600) : k0_pay17 v (ix2 p q) = v (ix2 p (0 : Fin 4)) :=
  (bcol (k0_pay3 v) broadcasts_S480x1_S480x1600 p q).trans (pay3_at v p)
theorem pay18_at (v : Vec Ideal S16x1600 .f32) (p : Fin 480) (q : Fin 1600) : k0_pay18 v (ix2 p q) = v (ix2 (0 : Fin 16) q) :=
  (brow _ broadcasts_S1x1600_S480x1600 p q).trans ((rowAt 0 (k0_pay7 v) slices_S16x1600_o0_0_S1x1600 q 0 rfl).trans (congrFun (pay7_eq v) _))
theorem pay26_at (v41 : FVec Ideal S1x1600 .f32) (p : Fin 480) (q : Fin 1600) : k0_pay26 v41 (ix2 p q) = v41 (ix2 (0 : Fin 1) q) :=
  brow v41 broadcasts_S1x1600_S480x1600 p q

/-! ## The corners of a query box -/

open Cert.Cost in
theorem pay20_at (v26 v28 : FVec Ideal S480x1 .f32) (p : Fin 480) :
    k0_pay20 v26 v28 (ix2 p (0 : Fin 1)) = v26 (ix2 p (0 : Fin 1)) - Whalf * v28 (ix2 p (0 : Fin 1)) := rfl
open Cert.Cost in
theorem pay21_at (v27 v29 : FVec Ideal S480x1 .f32) (p : Fin 480) :
    k0_pay21 v27 v29 (ix2 p (0 : Fin 1)) = v27 (ix2 p (0 : Fin 1)) - Whalf * v29 (ix2 p (0 : Fin 1)) := rfl
open Cert.Cost in
theorem pay22_at (v26 v28 : FVec Ideal S480x1 .f32) (p : Fin 480) :
    k0_pay22 v26 v28 (ix2 p (0 : Fin 1)) = v26 (ix2 p (0 : Fin 1)) + Whalf * v28 (ix2 p (0 : Fin 1)) := rfl
open Cert.Cost in
theorem pay23_at (v27 v29 : FVec Ideal S480x1 .f32) (p : Fin 480) :
    k0_pay23 v27 v29 (ix2 p (0 : Fin 1)) = v27 (ix2 p (0 : Fin 1)) + Whalf * v29 (ix2 p (0 : Fin 1)) := rfl

/-! ## The L1 distance added to the classification term -/

open Cert.Cost in
theorem pay19_at (v27 v28 v29 : FVec Ideal S480x1 .f32) (v33 v34 v35 : FVec Ideal S1x1600 .f32)
    (v42 v43 v44 : FVec Ideal S480x1600 .f32) (p : Fin 480) (q : Fin 1600) :
    k0_pay19 v27 v28 v29 v33 v34 v35 v42 v43 v44 (ix2 p q)
      = v42 (ix2 p q) + (((absE (v43 (ix2 p q) - v44 (ix2 p q))
          + absE (v27 (ix2 p (0 : Fin 1)) - v33 (ix2 (0 : Fin 1) q)))
          + absE (v28 (ix2 p (0 : Fin 1)) - v34 (ix2 (0 : Fin 1) q)))
          + absE (v29 (ix2 p (0 : Fin 1)) - v35 (ix2 (0 : Fin 1) q))) := by
  unfold k0_pay19
  simp only [addf_apply, subf_apply, absf_at, bcol, brow]

/-! ## The intersection, the query box's area, the target's area -/

open Cert.Cost in
theorem pay24_at (v26 v27 v28 v29 : FVec Ideal S480x1 .f32) (v37 v38 v39 v40 : FVec Ideal S1x1600 .f32)
    (p : Fin 480) (q : Fin 1600) :
    k0_pay24 v26 v27 v28 v29 v37 v38 v39 v40 (ix2 p q)
      = max (min (v26 (ix2 p (0 : Fin 1)) + Whalf * v28 (ix2 p (0 : Fin 1))) (v39 (ix2 (0 : Fin 1) q))
            - max (v26 (ix2 p (0 : Fin 1)) - Whalf * v28 (ix2 p (0 : Fin 1))) (v37 (ix2 (0 : Fin 1) q))) W0
        * max (min (v27 (ix2 p (0 : Fin 1)) + Whalf * v29 (ix2 p (0 : Fin 1))) (v40 (ix2 (0 : Fin 1) q))
            - max (v27 (ix2 p (0 : Fin 1)) - Whalf * v29 (ix2 p (0 : Fin 1))) (v38 (ix2 (0 : Fin 1) q))) W0 := by
  unfold k0_pay24
  simp only [mulf_apply, subf_apply, maximumf_apply, minimumf_apply, bcol, brow, pay20_at, pay21_at, pay22_at, pay23_at]
  rfl

open Cert.Cost in
theorem pay25_at (v26 v27 v28 v29 : FVec Ideal S480x1 .f32) (p : Fin 480) (q : Fin 1600) :
    k0_pay25 v26 v27 v28 v29 (ix2 p q)
      = ((v26 (ix2 p (0 : Fin 1)) + Whalf * v28 (ix2 p (0 : Fin 1))) - (v26 (ix2 p (0 : Fin 1)) - Whalf * v28 (ix2 p (0 : Fin 1))))
        * ((v27 (ix2 p (0 : Fin 1)) + Whalf * v29 (ix2 p (0 : Fin 1))) - (v27 (ix2 p (0 : Fin 1)) - Whalf * v29 (ix2 p (0 : Fin 1)))) := by
  unfold k0_pay25
  simp only [bcol]
  rfl

/-! ## The stored value: the sum of the first two terms less the generalised IoU -/

open Cert.Cost in
theorem pay1_at (v37 v38 v39 v40 : FVec Ideal S1x1600 .f32) (v62 : FVec Ideal S480x1600 .f32)
    (v65 v68 v71 v74 : FVec Ideal S480x1 .f32) (v96 v97 v98 : FVec Ideal S480x1600 .f32) (p : Fin 480) (q : Fin 1600) :
    k0_pay1 v37 v38 v39 v40 v62 v65 v68 v71 v74 v96 v97 v98 (ix2 p q)
      = v62 (ix2 p q)
        - (Ideal.div (v96 (ix2 p q)) (((v97 (ix2 p q) + v98 (ix2 p q)) - v96 (ix2 p q)) + Weps)
          - Ideal.div
              ((max (max (v71 (ix2 p (0 : Fin 1))) (v39 (ix2 (0 : Fin 1) q)) - min (v65 (ix2 p (0 : Fin 1))) (v37 (ix2 (0 : Fin 1) q))) W0
                  * max (max (v74 (ix2 p (0 : Fin 1))) (v40 (ix2 (0 : Fin 1) q)) - min (v68 (ix2 p (0 : Fin 1))) (v38 (ix2 (0 : Fin 1) q))) W0)
                - ((v97 (ix2 p q) + v98 (ix2 p q)) - v96 (ix2 p q)))
              ((max (max (v71 (ix2 p (0 : Fin 1))) (v39 (ix2 (0 : Fin 1) q)) - min (v65 (ix2 p (0 : Fin 1))) (v37 (ix2 (0 : Fin 1) q))) W0
                  * max (max (v74 (ix2 p (0 : Fin 1))) (v40 (ix2 (0 : Fin 1) q)) - min (v68 (ix2 p (0 : Fin 1))) (v38 (ix2 (0 : Fin 1) q))) W0)
                + Weps)) := by
  unfold k0_pay1
  simp only [mulf_apply, addf_apply, subf_apply, divf_apply, maximumf_apply, minimumf_apply, bcol, brow]
  rfl

/-! ## The classification term: the product with the indicator rows -/

/-- The block's product into the zero accumulator, at row `p` and column `q`: the sum over the four classes. -/
theorem matmulAt (l : FVec Ideal S480x4 .f32) (r : FVec Ideal S4x1600 .f32) (p : Fin 480) (q : Fin 1600) :
    matmul dot_S480x4_S4x1600_S480x1600_1_0_0_1_n_n (some .fp32) l r (constant (F := Ideal) S480x1600 .f32 0x00000000#32) (ix2 p q)
      = ∑ k : Fin 4, l (ix2 p k) * r (ix2 k q) :=
  PlainDot.matmul_zero_apply 480 4 1600 (some .fp32) l r p q

open Cert.Cost in
theorem pay16_at (v0 : Vec Ideal S480x4 .f32) (v30 : Vec Ideal S16x1600 .f32) (p : Fin 480) (q : Fin 1600) :
    k0_pay16 v0 v30 (ix2 p q)
      = ∑ c : Fin 4, difMul (v0 (ix2 p c)) * v30 (ix2 (⟨4 + c.val, by omega⟩ : Fin 16) q) := by
  unfold k0_pay16
  refine (matmulAt _ _ p q).trans (Finset.sum_congr rfl fun c _ => ?_)
  refine congrArg₂ (· * ·) ?_
    ((rows4At (k0_pay7 v30) slices_S16x1600_o4_0_S4x1600 c q).trans (congrFun (pay7_eq v30) _))
  show difMul (shapeCast S480x4 v0 shapeCasts_S480x4_S480x4 (ix2 p c)) = _
  rw [shapeCast_self]

/-! ## The block at an index is the cost of the pair -/

theorem outBlk_apply (x0 x1 : Vec Ideal S480x4 .f32) (x2 : Vec Ideal S16x1600 .f32) (p : Fin 480) (q : Fin 1600) :
    outBlk (F := Ideal) x0 x1 x2 (ix2 p q)
      = Cert.Cost.costDot (fun k : Fin 4 => x0 (ix2 p k)) (fun k : Fin 4 => x1 (ix2 p k))
          (fun k : Fin 4 => x2 (ix2 (⟨k.val, by omega⟩ : Fin 16) q))
          (fun k : Fin 4 => x2 (ix2 (⟨4 + k.val, by omega⟩ : Fin 16) q))
          (x2 (ix2 (8 : Fin 16) q)) (x2 (ix2 (9 : Fin 16) q)) (x2 (ix2 (10 : Fin 16) q)) (x2 (ix2 (11 : Fin 16) q))
          (x2 (ix2 (12 : Fin 16) q)) := by
  rw [outBlk_blockVal]
  unfold blockVal
  rw [pay1_at, pay19_at, pay24_at, pay25_at, pay26_at, pay16_at, pay17_at, pay18_at]
  simp only [pay20_at, pay21_at, pay22_at, pay23_at, pay3_at, pay4_at, pay5_at, pay6_at, pay8_at, pay9_at, pay10_at,
    pay11_at, pay12_at, pay13_at, pay14_at, pay15_at]
  rfl

end Cert.KernelIdeal.Hand

end
-- ==== Proof.KIHost.lean ====
/-
  What the lines before the region leave in the three arrays the region reads, entry by entry.

  The flattened logits and the flattened query boxes are the launch arrays re-indexed: row b · 900 + qq of the
  14400 × 4 array is row (b, qq) of the 16 × 900 × 4 one, the row-major position being the same.

  The 16 × 1600 table is eight blocks joined along the rows. Rows 0 to 3 are the target boxes transposed, so row k
  holds coordinate k of every target. Rows 4 to 7 are the label indicators transposed: the 1600 × 4 matrix comparing
  each target's label word with the class numbers 0, 1, 2, 3, each outcome bit read as the real 0 or 1. Rows 8 to 11 are
  the corners of the target boxes, cx - ½·w, cy - ½·h, cx + ½·w, cy + ½·h, and row 12 the area (x2 - x1) · (y2 - y1),
  each computed target by target from the columns of the box table and the word of one half. Rows 13 to 15 are zero and
  are not read here. Each statement below names one entry of one of the three arrays as a function of the launch
  contents, in the vocabulary of the per-pair specification.
-/
import proofs.«415464_j68289980007125_3_alg».proof.Proof.KIBase
import proofs.«415464_j68289980007125_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.Hand

open Idealize.ShloMosaic Idealize.ShloMosaic.TcCoe
open Idealize.SL.Sem
open Idealize.ShloMosaic.ValueIdx
open Cert.KernelIdeal Cert.KernelIdeal.Gen

variable (m : (ℓ : Loc nD τ sig) → Buf (Elt Ideal) ℓ)

/-! ## The two flattened arrays -/

/-- Row (b, qq) of a 16 × 900 stack, counted row-major. -/
def rowOf (b : Fin 16) (qq : Fin 900) : Fin 14400 := ⟨b.val * 900 + qq.val, by have := b.isLt; have := qq.isLt; omega⟩

/-- A 16 × 900 × 4 array flattened to 14400 × 4 reads, at (rowOf b qq, k), the array at (b, qq, k). -/
theorem flat_apply (y : S16x900x4.Idx → EReal) (b : Fin 16) (qq : Fin 900) (k : Fin 4) :
    shapeCast S14400x4 y shapeCasts_S16x900x4_S14400x4 (ix2 (rowOf b qq) k) = y (ix3 b qq k) := by
  refine shapeCast_apply y shapeCasts_S16x900x4_S14400x4 _ _ ?_
  rw [Shape.rowMajor_val_three, Shape.rowMajor_val_two]
  rfl

theorem V_main_v0_eq (c : Dev nD) :
    (V (F := Ideal) m c main_v0 : S14400x4.Idx → EReal) = shapeCast S14400x4 (m ((c : Thread nD τ).loc main_arg0) : S16x900x4.Idx → EReal) shapeCasts_S16x900x4_S14400x4 := by
  show StableHlo.after hostOps0 (fun b => m (c, b)) (Proc.devRef .tc main_v0) = _
  after_results_simp
  rfl

theorem V_main_v1_eq (c : Dev nD) :
    (V (F := Ideal) m c main_v1 : S14400x4.Idx → EReal) = shapeCast S14400x4 (m ((c : Thread nD τ).loc main_arg1) : S16x900x4.Idx → EReal) shapeCasts_S16x900x4_S14400x4 := by
  show StableHlo.after hostOps0 (fun b => m (c, b)) (Proc.devRef .tc main_v1) = _
  after_results_simp
  rfl

/-- The flattened logits at row b · 900 + qq are the logits of query (b, qq). -/
theorem V_logits_apply (c : Dev nD) (b : Fin 16) (qq : Fin 900) (k : Fin 4) :
    (V (F := Ideal) m c main_v0 : S14400x4.Idx → EReal) (ix2 (rowOf b qq) k) = (m ((c : Thread nD τ).loc main_arg0) : S16x900x4.Idx → EReal) (ix3 b qq k) :=
  (congrFun (V_main_v0_eq m c) _).trans (flat_apply _ b qq k)

/-- The flattened query boxes at row b · 900 + qq are the box of query (b, qq). -/
theorem V_boxes_apply (c : Dev nD) (b : Fin 16) (qq : Fin 900) (k : Fin 4) :
    (V (F := Ideal) m c main_v1 : S14400x4.Idx → EReal) (ix2 (rowOf b qq) k) = (m ((c : Thread nD τ).loc main_arg1) : S16x900x4.Idx → EReal) (ix3 b qq k) :=
  (congrFun (V_main_v1_eq m c) _).trans (flat_apply _ b qq k)

/-! ## The host lines' values as functions of the target table and the label vector -/

/-- Columns 0 to 3 of the 1600 × 4 target table, as vectors: the centre (cx, cy) and the size (w, h). -/
def tcx (x : S1600x4.Idx → EReal) : S1600.Idx → EReal :=
  shapeCast S1600 (extractStridedSlice S1600x1 ![0, 0] x slices_S1600x4_S1600x1_0_0) shapeCasts_S1600x1_S1600
def tcy (x : S1600x4.Idx → EReal) : S1600.Idx → EReal :=
  shapeCast S1600 (extractStridedSlice S1600x1 ![0, 1] x slices_S1600x4_S1600x1_0_1) shapeCasts_S1600x1_S1600
def tw (x : S1600x4.Idx → EReal) : S1600.Idx → EReal :=
  shapeCast S1600 (extractStridedSlice S1600x1 ![0, 2] x slices_S1600x4_S1600x1_0_2) shapeCasts_S1600x1_S1600
def th (x : S1600x4.Idx → EReal) : S1600.Idx → EReal :=
  shapeCast S1600 (extractStridedSlice S1600x1 ![0, 3] x slices_S1600x4_S1600x1_0_3) shapeCasts_S1600x1_S1600

/-- The word of one half at every target. -/
def halfV : S1600.Idx → EReal :=
  broadcastInDim S1600 ![] bcast_S_S1600 (constant (F := Ideal) S_ .f32 0x3F000000#32)

/-- The corners and the area, target by target. -/
def vx1 (x : S1600x4.Idx → EReal) : S1600.Idx → EReal := subf (F := Ideal) (φ := .f32) (tcx x) (mulf (F := Ideal) (φ := .f32) halfV (tw x))
def vy1 (x : S1600x4.Idx → EReal) : S1600.Idx → EReal := subf (F := Ideal) (φ := .f32) (tcy x) (mulf (F := Ideal) (φ := .f32) halfV (th x))
def vx2 (x : S1600x4.Idx → EReal) : S1600.Idx → EReal := addf (F := Ideal) (φ := .f32) (tcx x) (mulf (F := Ideal) (φ := .f32) halfV (tw x))
def vy2 (x : S1600x4.Idx → EReal) : S1600.Idx → EReal := addf (F := Ideal) (φ := .f32) (tcy x) (mulf (F := Ideal) (φ := .f32) halfV (th x))
def varea (x : S1600x4.Idx → EReal) : S1600.Idx → EReal :=
  mulf (F := Ideal) (φ := .f32) (subf (F := Ideal) (φ := .f32) (vx2 x) (vx1 x)) (subf (F := Ideal) (φ := .f32) (vy2 x) (vy1 x))

/-- The 1600 × 4 table of "target q has label k" as the real 0 or 1. -/
def onehot (l : S1600.Idx → BitVec 32) : S1600x4.Idx → EReal :=
  uitofp (F := Ideal) .f32
    (cmpi .eq
      (broadcastInDim S1600x4 ![0, 1] bcast_S1600x1_S1600x4_0_1 (broadcastInDim S1600x1 ![0] bcast_S1600_S1600x1_0 l))
      (broadcastInDim S1600x4 ![0, 1] bcast_S1x4_S1600x4_0_1 (broadcastInDim S1x4 ![1] bcast_S4_S1x4_1 (iotaInDim S4 32 0))))

/-- The 16 × 1600 table: the target boxes transposed, the label indicators transposed, the four corner rows, the
    area row, three rows of the zero word. -/
def tabTerm (x : S1600x4.Idx → EReal) (l : S1600.Idx → BitVec 32) : S16x1600.Idx → EReal :=
  concatenate S16x1600 0
    [⟨S4x1600, transpose S4x1600 [1, 0] x transposes_S1600x4_S4x1600_1_0⟩,
     ⟨S4x1600, transpose S4x1600 [1, 0] (onehot l) transposes_S1600x4_S4x1600_1_0⟩,
     ⟨S1x1600, broadcastInDim S1x1600 ![1] bcast_S1600_S1x1600_1 (vx1 x)⟩,
     ⟨S1x1600, broadcastInDim S1x1600 ![1] bcast_S1600_S1x1600_1 (vy1 x)⟩,
     ⟨S1x1600, broadcastInDim S1x1600 ![1] bcast_S1600_S1x1600_1 (vx2 x)⟩,
     ⟨S1x1600, broadcastInDim S1x1600 ![1] bcast_S1600_S1x1600_1 (vy2 x)⟩,
     ⟨S1x1600, broadcastInDim S1x1600 ![1] bcast_S1600_S1x1600_1 (varea x)⟩,
     ⟨S3x1600, broadcastInDim S3x1600 ![] bcast_S_S3x1600 (constant (F := Ideal) S_ .f32 0x00000000#32)⟩]
    concatenates_S4x1600_S4x1600_S1x1600_S1x1600_S1x1600_S1x1600_S1x1600_S3x1600_S16x1600_d0

/-! ## The values read at an index -/

section Reads

variable (x : S1600x4.Idx → EReal) (l : S1600.Idx → BitVec 32)

/-- A 1600 × 1 column flattened to a vector reads, at q, the column at (q, 0). -/
theorem col_flat_apply (y : S1600x1.Idx → EReal) (q : Fin 1600) :
    shapeCast S1600 y shapeCasts_S1600x1_S1600 (ix1 q) = y (ix2 q (0 : Fin 1)) := by
  refine shapeCast_apply y shapeCasts_S1600x1_S1600 (ix1 q) (ix2 q (0 : Fin 1)) ?_
  rw [Shape.rowMajor_val_two, Shape.rowMajor_val_one]
  show q.val * 1 + 0 = q.val
  omega

theorem tcx_apply (q : Fin 1600) : tcx x (ix1 q) = x (ix2 q (0 : Fin 4)) := by
  unfold tcx
  rw [col_flat_apply]
  exact slice2_axis1_apply 0 x slices_S1600x4_S1600x1_0_0 q (0 : Fin 1) (0 : Fin 4) rfl

theorem tcy_apply (q : Fin 1600) : tcy x (ix1 q) = x (ix2 q (1 : Fin 4)) := by
  unfold tcy
  rw [col_flat_apply]
  exact slice2_axis1_apply 1 x slices_S1600x4_S1600x1_0_1 q (0 : Fin 1) (1 : Fin 4) rfl

theorem tw_apply (q : Fin 1600) : tw x (ix1 q) = x (ix2 q (2 : Fin 4)) := by
  unfold tw
  rw [col_flat_apply]
  exact slice2_axis1_apply 2 x slices_S1600x4_S1600x1_0_2 q (0 : Fin 1) (2 : Fin 4) rfl

theorem th_apply (q : Fin 1600) : th x (ix1 q) = x (ix2 q (3 : Fin 4)) := by
  unfold th
  rw [col_flat_apply]
  exact slice2_axis1_apply 3 x slices_S1600x4_S1600x1_0_3 q (0 : Fin 1) (3 : Fin 4) rfl

/-- The broadcast scalar is the word of one half everywhere. -/
theorem halfV_apply (j : S1600.Idx) : halfV j = Cert.Cost.Whalf := by
  unfold halfV
  exact broadcastInDim_apply _ bcast_S_S1600 _ j ix0 (fun a => a.elim0)

theorem vx1_apply (q : Fin 1600) : vx1 x (ix1 q) = Cert.Cost.x1 (fun k : Fin 4 => x (ix2 q k)) := by
  show tcx x (ix1 q) - halfV (ix1 q) * tw x (ix1 q) = x (ix2 q (0 : Fin 4)) - Cert.Cost.Whalf * x (ix2 q (2 : Fin 4))
  rw [tcx_apply, halfV_apply, tw_apply]

theorem vy1_apply (q : Fin 1600) : vy1 x (ix1 q) = Cert.Cost.y1 (fun k : Fin 4 => x (ix2 q k)) := by
  show tcy x (ix1 q) - halfV (ix1 q) * th x (ix1 q) = x (ix2 q (1 : Fin 4)) - Cert.Cost.Whalf * x (ix2 q (3 : Fin 4))
  rw [tcy_apply, halfV_apply, th_apply]

theorem vx2_apply (q : Fin 1600) : vx2 x (ix1 q) = Cert.Cost.x2 (fun k : Fin 4 => x (ix2 q k)) := by
  show tcx x (ix1 q) + halfV (ix1 q) * tw x (ix1 q) = x (ix2 q (0 : Fin 4)) + Cert.Cost.Whalf * x (ix2 q (2 : Fin 4))
  rw [tcx_apply, halfV_apply, tw_apply]

theorem vy2_apply (q : Fin 1600) : vy2 x (ix1 q) = Cert.Cost.y2 (fun k : Fin 4 => x (ix2 q k)) := by
  show tcy x (ix1 q) + halfV (ix1 q) * th x (ix1 q) = x (ix2 q (1 : Fin 4)) + Cert.Cost.Whalf * x (ix2 q (3 : Fin 4))
  rw [tcy_apply, halfV_apply, th_apply]

theorem varea_apply (q : Fin 1600) : varea x (ix1 q) = Cert.Cost.area (fun k : Fin 4 => x (ix2 q k)) := by
  show (vx2 x (ix1 q) - vx1 x (ix1 q)) * (vy2 x (ix1 q) - vy1 x (ix1 q)) = _
  rw [vx1_apply, vy1_apply, vx2_apply, vy2_apply]
  rfl

/-- A vector laid as the one row of a 1 × 1600 matrix reads, at (0, q), the vector at q. -/
theorem row_apply (v : S1600.Idx → EReal) (q : Fin 1600) :
    broadcastInDim S1x1600 ![1] bcast_S1600_S1x1600_1 v (ix2 (0 : Fin 1) q) = v (ix1 q) := by
  refine broadcastInDim_apply _ bcast_S1600_S1x1600_1 v _ (ix1 q) (fun a => ?_)
  match a with
  | ⟨0, _⟩ => show q.val = if (1600 : Nat) = 1 then 0 else q.val; rw [if_neg (by decide)]

/-- The label of target q laid along the four classes. -/
theorem labels_apply (q : Fin 1600) (k : Fin 4) :
    broadcastInDim S1600x4 ![0, 1] bcast_S1600x1_S1600x4_0_1 (broadcastInDim S1600x1 ![0] bcast_S1600_S1600x1_0 l) (ix2 q k)
      = l (ix1 q) := by
  refine (broadcastInDim_apply _ bcast_S1600x1_S1600x4_0_1 _ _ (ix2 q (0 : Fin 1)) (fun a => ?_)).trans ?_
  · match a with
    | ⟨0, _⟩ => show q.val = if (1600 : Nat) = 1 then 0 else q.val; rw [if_neg (by decide)]
    | ⟨1, _⟩ => show (0 : Nat) = if (1 : Nat) = 1 then 0 else k.val; rw [if_pos rfl]
  · refine broadcastInDim_apply _ bcast_S1600_S1600x1_0 l _ (ix1 q) (fun a => ?_)
    match a with
    | ⟨0, _⟩ => show q.val = if (1600 : Nat) = 1 then 0 else q.val; rw [if_neg (by decide)]

/-- The class numbers 0 to 3 laid along the 1600 targets. -/
theorem classes_apply (q : Fin 1600) (k : Fin 4) :
    broadcastInDim S1600x4 ![0, 1] bcast_S1x4_S1600x4_0_1 (broadcastInDim S1x4 ![1] bcast_S4_S1x4_1 (iotaInDim S4 32 0)) (ix2 q k)
      = BitVec.ofNat 32 k.val := by
  refine (broadcastInDim_apply _ bcast_S1x4_S1600x4_0_1 _ _ (ix2 (0 : Fin 1) k) (fun a => ?_)).trans ?_
  · match a with
    | ⟨0, _⟩ => show (0 : Nat) = if (1 : Nat) = 1 then 0 else q.val; rw [if_pos rfl]
    | ⟨1, _⟩ => show k.val = if (4 : Nat) = 1 then 0 else k.val; rw [if_neg (by decide)]
  · refine (broadcastInDim_apply _ bcast_S4_S1x4_1 (iotaInDim S4 32 0) _ (ix1 k) (fun a => ?_)).trans rfl
    match a with
    | ⟨0, _⟩ => show k.val = if (4 : Nat) = 1 then 0 else k.val; rw [if_neg (by decide)]

/-- A one-bit word is 0 or 1; its value as a natural is the indicator of its being 1. -/
theorem bit_toNat (b : BitVec 1) : b.toNat = if b = 1#1 then 1 else 0 := by
  revert b; decide

theorem onehot_apply (q : Fin 1600) (k : Fin 4) : onehot l (ix2 q k) = Cert.Cost.indic (l (ix1 q)) k := by
  show (((IntOp.cmpi .eq
      (broadcastInDim S1600x4 ![0, 1] bcast_S1600x1_S1600x4_0_1 (broadcastInDim S1600x1 ![0] bcast_S1600_S1600x1_0 l) (ix2 q k))
      (broadcastInDim S1600x4 ![0, 1] bcast_S1x4_S1600x4_0_1 (broadcastInDim S1x4 ![1] bcast_S4_S1x4_1 (iotaInDim S4 32 0)) (ix2 q k))).toNat : ℝ) : EReal) = _
  rw [labels_apply, classes_apply, bit_toNat]
  unfold Cert.Cost.indic
  simp only [StableHlo.Predicate.cmpi_eq_iff]

end Reads

/-! ## The table read at a row -/

section Table

variable (x : S1600x4.Idx → EReal) (l : S1600.Idx → BitVec 32)

/-- Rows 0 to 3: coordinate k of target q's box. -/
theorem tab_box_apply (k : Fin 4) (q : Fin 1600) :
    tabTerm x l (ix2 (⟨k.val, by omega⟩ : Fin 16) q) = x (ix2 q k) := by
  unfold tabTerm
  refine (concatenate_apply_piece (0 : Fin S16x1600.rank) _ _ _ 0 (by show (0 : Nat) < 8; omega) S4x1600 _ rfl rfl 0 rfl
    (ix2 k q) (fun b hb => ?_) ?_).trans ?_
  · match b with
    | ⟨0, _⟩ => exact absurd rfl hb
    | ⟨1, _⟩ => rfl
  · show 0 + k.val = k.val
    omega
  · exact transpose_ix2_apply x transposes_S1600x4_S4x1600_1_0 k q

/-- Rows 4 to 7: whether target q has label k. -/
theorem tab_onehot_apply (k : Fin 4) (q : Fin 1600) :
    tabTerm x l (ix2 (⟨4 + k.val, by omega⟩ : Fin 16) q) = Cert.Cost.indic (l (ix1 q)) k := by
  unfold tabTerm
  refine (concatenate_apply_piece (0 : Fin S16x1600.rank) _ _ _ 1 (by show (1 : Nat) < 8; omega) S4x1600 _ rfl rfl 4 rfl
    (ix2 k q) (fun b hb => ?_) ?_).trans ?_
  · match b with
    | ⟨0, _⟩ => exact absurd rfl hb
    | ⟨1, _⟩ => rfl
  · rfl
  · exact (transpose_ix2_apply (onehot l) transposes_S1600x4_S4x1600_1_0 k q).trans (onehot_apply l q k)

theorem tab_x1_apply (q : Fin 1600) :
    tabTerm x l (ix2 (8 : Fin 16) q) = Cert.Cost.x1 (fun k : Fin 4 => x (ix2 q k)) := by
  unfold tabTerm
  refine (concatenate_apply_piece (0 : Fin S16x1600.rank) _ _ _ 2 (by show (2 : Nat) < 8; omega) S1x1600 _ rfl rfl 8 rfl
    (ix2 (0 : Fin 1) q) (fun b hb => ?_) ?_).trans ?_
  · match b with
    | ⟨0, _⟩ => exact absurd rfl hb
    | ⟨1, _⟩ => rfl
  · rfl
  · rw [row_apply, vx1_apply]

theorem tab_y1_apply (q : Fin 1600) :
    tabTerm x l (ix2 (9 : Fin 16) q) = Cert.Cost.y1 (fun k : Fin 4 => x (ix2 q k)) := by
  unfold tabTerm
  refine (concatenate_apply_piece (0 : Fin S16x1600.rank) _ _ _ 3 (by show (3 : Nat) < 8; omega) S1x1600 _ rfl rfl 9 rfl
    (ix2 (0 : Fin 1) q) (fun b hb => ?_) ?_).trans ?_
  · match b with
    | ⟨0, _⟩ => exact absurd rfl hb
    | ⟨1, _⟩ => rfl
  · rfl
  · rw [row_apply, vy1_apply]

theorem tab_x2_apply (q : Fin 1600) :
    tabTerm x l (ix2 (10 : Fin 16) q) = Cert.Cost.x2 (fun k : Fin 4 => x (ix2 q k)) := by
  unfold tabTerm
  refine (concatenate_apply_piece (0 : Fin S16x1600.rank) _ _ _ 4 (by show (4 : Nat) < 8; omega) S1x1600 _ rfl rfl 10 rfl
    (ix2 (0 : Fin 1) q) (fun b hb => ?_) ?_).trans ?_
  · match b with
    | ⟨0, _⟩ => exact absurd rfl hb
    | ⟨1, _⟩ => rfl
  · rfl
  · rw [row_apply, vx2_apply]

theorem tab_y2_apply (q : Fin 1600) :
    tabTerm x l (ix2 (11 : Fin 16) q) = Cert.Cost.y2 (fun k : Fin 4 => x (ix2 q k)) := by
  unfold tabTerm
  refine (concatenate_apply_piece (0 : Fin S16x1600.rank) _ _ _ 5 (by show (5 : Nat) < 8; omega) S1x1600 _ rfl rfl 11 rfl
    (ix2 (0 : Fin 1) q) (fun b hb => ?_) ?_).trans ?_
  · match b with
    | ⟨0, _⟩ => exact absurd rfl hb
    | ⟨1, _⟩ => rfl
  · rfl
  · rw [row_apply, vy2_apply]

theorem tab_area_apply (q : Fin 1600) :
    tabTerm x l (ix2 (12 : Fin 16) q) = Cert.Cost.area (fun k : Fin 4 => x (ix2 q k)) := by
  unfold tabTerm
  refine (concatenate_apply_piece (0 : Fin S16x1600.rank) _ _ _ 6 (by show (6 : Nat) < 8; omega) S1x1600 _ rfl rfl 12 rfl
    (ix2 (0 : Fin 1) q) (fun b hb => ?_) ?_).trans ?_
  · match b with
    | ⟨0, _⟩ => exact absurd rfl hb
    | ⟨1, _⟩ => rfl
  · rfl
  · rw [row_apply, varea_apply]

end Table

/-! ## The eight operands of the table, each as the host lines compute it from the launch contents -/

theorem V_main_v33_eq (c : Dev nD) :
    (V (F := Ideal) m c main_v33 : S4x1600.Idx → EReal) = transpose S4x1600 [1, 0] (m ((c : Thread nD τ).loc main_arg2) : S1600x4.Idx → EReal) transposes_S1600x4_S4x1600_1_0 := by
  show StableHlo.after hostOps0 (fun b => m (c, b)) (Proc.devRef .tc main_v33) = _
  after_results_simp

theorem V_main_v34_eq (c : Dev nD) :
    (V (F := Ideal) m c main_v34 : S4x1600.Idx → EReal) = transpose S4x1600 [1, 0] (onehot (m ((c : Thread nD τ).loc main_arg3) : S1600.Idx → BitVec 32)) transposes_S1600x4_S4x1600_1_0 := by
  show StableHlo.after hostOps0 (fun b => m (c, b)) (Proc.devRef .tc main_v34) = _
  after_results_simp
  rfl

theorem V_main_v35_eq (c : Dev nD) :
    (V (F := Ideal) m c main_v35 : S1x1600.Idx → EReal) = broadcastInDim S1x1600 ![1] bcast_S1600_S1x1600_1 (vx1 (m ((c : Thread nD τ).loc main_arg2) : S1600x4.Idx → EReal)) := by
  show StableHlo.after hostOps0 (fun b => m (c, b)) (Proc.devRef .tc main_v35) = _
  after_results_simp
  rfl

theorem V_main_v36_eq (c : Dev nD) :
    (V (F := Ideal) m c main_v36 : S1x1600.Idx → EReal) = broadcastInDim S1x1600 ![1] bcast_S1600_S1x1600_1 (vy1 (m ((c : Thread nD τ).loc main_arg2) : S1600x4.Idx → EReal)) := by
  show StableHlo.after hostOps0 (fun b => m (c, b)) (Proc.devRef .tc main_v36) = _
  after_results_simp
  rfl

theorem V_main_v37_eq (c : Dev nD) :
    (V (F := Ideal) m c main_v37 : S1x1600.Idx → EReal) = broadcastInDim S1x1600 ![1] bcast_S1600_S1x1600_1 (vx2 (m ((c : Thread nD τ).loc main_arg2) : S1600x4.Idx → EReal)) := by
  show StableHlo.after hostOps0 (fun b => m (c, b)) (Proc.devRef .tc main_v37) = _
  after_results_simp
  rfl

theorem V_main_v38_eq (c : Dev nD) :
    (V (F := Ideal) m c main_v38 : S1x1600.Idx → EReal) = broadcastInDim S1x1600 ![1] bcast_S1600_S1x1600_1 (vy2 (m ((c : Thread nD τ).loc main_arg2) : S1600x4.Idx → EReal)) := by
  show StableHlo.after hostOps0 (fun b => m (c, b)) (Proc.devRef .tc main_v38) = _
  after_results_simp
  rfl

theorem V_main_v39_eq (c : Dev nD) :
    (V (F := Ideal) m c main_v39 : S1x1600.Idx → EReal) = broadcastInDim S1x1600 ![1] bcast_S1600_S1x1600_1 (varea (m ((c : Thread nD τ).loc main_arg2) : S1600x4.Idx → EReal)) := by
  show StableHlo.after hostOps0 (fun b => m (c, b)) (Proc.devRef .tc main_v39) = _
  after_results_simp
  rfl

theorem V_main_v32_eq (c : Dev nD) :
    (V (F := Ideal) m c main_v32 : S3x1600.Idx → EReal) = broadcastInDim S3x1600 ![] bcast_S_S3x1600 (constant (F := Ideal) S_ .f32 0x00000000#32) := by
  show StableHlo.after hostOps0 (fun b => m (c, b)) (Proc.devRef .tc main_v32) = _
  after_results_simp

/-- The table is the eight operands joined along the rows. -/
theorem V_main_v40_cat (c : Dev nD) :
    (V (F := Ideal) m c main_v40 : S16x1600.Idx → EReal)
      = concatenate S16x1600 0
          [⟨S4x1600, (V (F := Ideal) m c main_v33 : S4x1600.Idx → EReal)⟩, ⟨S4x1600, (V (F := Ideal) m c main_v34 : S4x1600.Idx → EReal)⟩,
           ⟨S1x1600, (V (F := Ideal) m c main_v35 : S1x1600.Idx → EReal)⟩, ⟨S1x1600, (V (F := Ideal) m c main_v36 : S1x1600.Idx → EReal)⟩,
           ⟨S1x1600, (V (F := Ideal) m c main_v37 : S1x1600.Idx → EReal)⟩, ⟨S1x1600, (V (F := Ideal) m c main_v38 : S1x1600.Idx → EReal)⟩,
           ⟨S1x1600, (V (F := Ideal) m c main_v39 : S1x1600.Idx → EReal)⟩, ⟨S3x1600, (V (F := Ideal) m c main_v32 : S3x1600.Idx → EReal)⟩]
          concatenates_S4x1600_S4x1600_S1x1600_S1x1600_S1x1600_S1x1600_S1x1600_S3x1600_S16x1600_d0 := by
  show StableHlo.after hostOps0 (fun b => m (c, b)) (Proc.devRef .tc main_v40)
      = concatenate S16x1600 0
          [⟨S4x1600, StableHlo.after hostOps0 (fun b => m (c, b)) (Proc.devRef .tc main_v33)⟩, ⟨S4x1600, StableHlo.after hostOps0 (fun b => m (c, b)) (Proc.devRef .tc main_v34)⟩,
           ⟨S1x1600, StableHlo.after hostOps0 (fun b => m (c, b)) (Proc.devRef .tc main_v35)⟩, ⟨S1x1600, StableHlo.after hostOps0 (fun b => m (c, b)) (Proc.devRef .tc main_v36)⟩,
           ⟨S1x1600, StableHlo.after hostOps0 (fun b => m (c, b)) (Proc.devRef .tc main_v37)⟩, ⟨S1x1600, StableHlo.after hostOps0 (fun b => m (c, b)) (Proc.devRef .tc main_v38)⟩,
           ⟨S1x1600, StableHlo.after hostOps0 (fun b => m (c, b)) (Proc.devRef .tc main_v39)⟩, ⟨S3x1600, StableHlo.after hostOps0 (fun b => m (c, b)) (Proc.devRef .tc main_v32)⟩]
          concatenates_S4x1600_S4x1600_S1x1600_S1x1600_S1x1600_S1x1600_S1x1600_S3x1600_S16x1600_d0
  simp only [StableHlo.after_cons, StableHlo.after_nil]
  rw [StableHlo.nary_result]
  simp only [Matrix.cons_val]
  repeat (rw [StableHlo.nary_result_ne]; rotate_left; decide)

theorem V_main_v40_eq (c : Dev nD) :
    (V (F := Ideal) m c main_v40 : S16x1600.Idx → EReal) = tabTerm (m ((c : Thread nD τ).loc main_arg2) : S1600x4.Idx → EReal) (m ((c : Thread nD τ).loc main_arg3) : S1600.Idx → BitVec 32) := by
  rw [V_main_v40_cat, V_main_v33_eq, V_main_v34_eq, V_main_v35_eq, V_main_v36_eq, V_main_v37_eq, V_main_v38_eq, V_main_v39_eq,
    V_main_v32_eq]
  rfl

/-! ## The table's entries in the vocabulary of the specification -/

/-- Row k, k < 4: coordinate k of target q's box. -/
theorem V_tab_box (c : Dev nD) (k : Fin 4) (q : Fin 1600) :
    (V (F := Ideal) m c main_v40 : S16x1600.Idx → EReal) (ix2 (⟨k.val, by omega⟩ : Fin 16) q) = (m ((c : Thread nD τ).loc main_arg2) : S1600x4.Idx → EReal) (ix2 q k) :=
  (congrFun (V_main_v40_eq m c) _).trans (tab_box_apply _ _ k q)

/-- Row 4 + k: the indicator of target q's label being class k. -/
theorem V_tab_onehot (c : Dev nD) (k : Fin 4) (q : Fin 1600) :
    (V (F := Ideal) m c main_v40 : S16x1600.Idx → EReal) (ix2 (⟨4 + k.val, by omega⟩ : Fin 16) q) = Cert.Cost.indic ((m ((c : Thread nD τ).loc main_arg3) : S1600.Idx → BitVec 32) (ix1 q)) k :=
  (congrFun (V_main_v40_eq m c) _).trans (tab_onehot_apply _ _ k q)

/-- Rows 8 to 12: the corners and the area of target q's box. -/
theorem V_tab_x1 (c : Dev nD) (q : Fin 1600) :
    (V (F := Ideal) m c main_v40 : S16x1600.Idx → EReal) (ix2 (8 : Fin 16) q) = Cert.Cost.x1 (fun k : Fin 4 => (m ((c : Thread nD τ).loc main_arg2) : S1600x4.Idx → EReal) (ix2 q k)) :=
  (congrFun (V_main_v40_eq m c) _).trans (tab_x1_apply _ _ q)

theorem V_tab_y1 (c : Dev nD) (q : Fin 1600) :
    (V (F := Ideal) m c main_v40 : S16x1600.Idx → EReal) (ix2 (9 : Fin 16) q) = Cert.Cost.y1 (fun k : Fin 4 => (m ((c : Thread nD τ).loc main_arg2) : S1600x4.Idx → EReal) (ix2 q k)) :=
  (congrFun (V_main_v40_eq m c) _).trans (tab_y1_apply _ _ q)

theorem V_tab_x2 (c : Dev nD) (q : Fin 1600) :
    (V (F := Ideal) m c main_v40 : S16x1600.Idx → EReal) (ix2 (10 : Fin 16) q) = Cert.Cost.x2 (fun k : Fin 4 => (m ((c : Thread nD τ).loc main_arg2) : S1600x4.Idx → EReal) (ix2 q k)) :=
  (congrFun (V_main_v40_eq m c) _).trans (tab_x2_apply _ _ q)

theorem V_tab_y2 (c : Dev nD) (q : Fin 1600) :
    (V (F := Ideal) m c main_v40 : S16x1600.Idx → EReal) (ix2 (11 : Fin 16) q) = Cert.Cost.y2 (fun k : Fin 4 => (m ((c : Thread nD τ).loc main_arg2) : S1600x4.Idx → EReal) (ix2 q k)) :=
  (congrFun (V_main_v40_eq m c) _).trans (tab_y2_apply _ _ q)

theorem V_tab_area (c : Dev nD) (q : Fin 1600) :
    (V (F := Ideal) m c main_v40 : S16x1600.Idx → EReal) (ix2 (12 : Fin 16) q) = Cert.Cost.area (fun k : Fin 4 => (m ((c : Thread nD τ).loc main_arg2) : S1600x4.Idx → EReal) (ix2 q k)) :=
  (congrFun (V_main_v40_eq m c) _).trans (tab_area_apply _ _ q)

end Cert.KernelIdeal.Hand

end
-- ==== Proof.KIValue.lean ====
/-
  The value of the kernel's program: after every weakly fair execution the result array holds, at `(b, qq, t)`,
  the matching cost of query `(b, qq)` against target `t` (`kernelCost`, the dot-product reading of the
  specification), and the arguments are unchanged.

  The frame run leaves the region's flat 14400 × 1600 result as the blocks the thirty grid points wrote back. A
  grid point's block is `outBlk` of the three input blocks; read at an entry, that is the cost of one row of the
  logits and box blocks against one column of the target table. Block `t` of a row window starts at row `480 t` and
  the table's block is the whole table, so point `t` writes block `t` of ONE whole-array function, `flatCost`; the
  thirty blocks cover the array, so the array IS `flatCost`. The line after the region reshapes it, and the host
  lines before the region say what the three arrays hold in terms of the arguments.
-/
import proofs.«415464_j68289980007125_3_alg».proof.Proof.KIFrame
import proofs.«415464_j68289980007125_3_alg».proof.Proof.KIPayload
import proofs.«415464_j68289980007125_3_alg».proof.Proof.KIHost
import proofs.«415464_j68289980007125_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-! ## The result as one function of the argument arrays -/

/-- The cost of query `(b, qq)` against target `t`, from the four argument arrays: the dot-product reading, the
    target's corners and area computed from its box. -/
def kernelCost (a0 a1 : S16x900x4.Idx → EReal) (a2 : S1600x4.Idx → EReal) (a3 : S1600.Idx → BitVec 32) :
    S16x900x1600.Idx → EReal := fun i =>
  Cert.Cost.costDot (fun k : Fin 4 => a0 (ix3 (⟨(i 0).val, (i 0).isLt⟩ : Fin 16) (⟨(i 1).val, (i 1).isLt⟩ : Fin 900) k))
    (fun k : Fin 4 => a1 (ix3 (⟨(i 0).val, (i 0).isLt⟩ : Fin 16) (⟨(i 1).val, (i 1).isLt⟩ : Fin 900) k))
    (fun k : Fin 4 => a2 (ix2 (⟨(i 2).val, (i 2).isLt⟩ : Fin 1600) k))
    (Cert.Cost.indic (a3 (ix1 (⟨(i 2).val, (i 2).isLt⟩ : Fin 1600))))
    (Cert.Cost.x1 fun k : Fin 4 => a2 (ix2 (⟨(i 2).val, (i 2).isLt⟩ : Fin 1600) k))
    (Cert.Cost.y1 fun k : Fin 4 => a2 (ix2 (⟨(i 2).val, (i 2).isLt⟩ : Fin 1600) k))
    (Cert.Cost.x2 fun k : Fin 4 => a2 (ix2 (⟨(i 2).val, (i 2).isLt⟩ : Fin 1600) k))
    (Cert.Cost.y2 fun k : Fin 4 => a2 (ix2 (⟨(i 2).val, (i 2).isLt⟩ : Fin 1600) k))
    (Cert.Cost.area fun k : Fin 4 => a2 (ix2 (⟨(i 2).val, (i 2).isLt⟩ : Fin 1600) k))

/-- The flat 14400 × 1600 array the region writes, from the three arrays it reads as it finds them: row `r` of the
    flattened logits and boxes against column `q` of the target table. -/
def flatCost (c : Dev nD) : S14400x1600.Idx → EReal := fun i =>
  Cert.Cost.costDot
    (fun k : Fin 4 => (V (F := Ideal) m c main_v0 : S14400x4.Idx → EReal) (ix2 (⟨(i 0).val, (i 0).isLt⟩ : Fin 14400) k))
    (fun k : Fin 4 => (V (F := Ideal) m c main_v1 : S14400x4.Idx → EReal) (ix2 (⟨(i 0).val, (i 0).isLt⟩ : Fin 14400) k))
    (fun k : Fin 4 => (V (F := Ideal) m c main_v40 : S16x1600.Idx → EReal) (ix2 (⟨k.val, by omega⟩ : Fin 16) (⟨(i 1).val, (i 1).isLt⟩ : Fin 1600)))
    (fun k : Fin 4 => (V (F := Ideal) m c main_v40 : S16x1600.Idx → EReal) (ix2 (⟨4 + k.val, by omega⟩ : Fin 16) (⟨(i 1).val, (i 1).isLt⟩ : Fin 1600)))
    ((V (F := Ideal) m c main_v40 : S16x1600.Idx → EReal) (ix2 (8 : Fin 16) (⟨(i 1).val, (i 1).isLt⟩ : Fin 1600)))
    ((V (F := Ideal) m c main_v40 : S16x1600.Idx → EReal) (ix2 (9 : Fin 16) (⟨(i 1).val, (i 1).isLt⟩ : Fin 1600)))
    ((V (F := Ideal) m c main_v40 : S16x1600.Idx → EReal) (ix2 (10 : Fin 16) (⟨(i 1).val, (i 1).isLt⟩ : Fin 1600)))
    ((V (F := Ideal) m c main_v40 : S16x1600.Idx → EReal) (ix2 (11 : Fin 16) (⟨(i 1).val, (i 1).isLt⟩ : Fin 1600)))
    ((V (F := Ideal) m c main_v40 : S16x1600.Idx → EReal) (ix2 (12 : Fin 16) (⟨(i 1).val, (i 1).isLt⟩ : Fin 1600)))

/-! ## From blocks to the array -/

/-- The windows' block indices over the grid: the row windows are at block `t` along the rows and block 0 along
    the columns; the table is always its block (0, 0). -/
theorem win_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `480 t + p` of the flat arrays. -/
def flatRow (t : Fin cfg0.N) (p : Fin 480) : Fin 14400 :=
  ⟨t.val * 480 + p.val, by have h : t.val < 30 := lt_of_lt_of_eq t.isLt N_0; have := p.isLt; omega⟩

/-- The logits block at point `t` is rows `480 t …` of the flattened logits. -/
theorem blk0_at (c : Dev nD) (t : Fin cfg0.N) (p : Fin 480) (k : Fin 4) :
    iblk m c 0 t (ix2 p k) = (V (F := Ideal) m c main_v0 : S14400x4.Idx → EReal) (ix2 (flatRow t p) k) := by
  show (V (F := Ideal) m c main_v0 : S14400x4.Idx → EReal) (((cfg0.win 0).blk t).view.emb (ix2 p k)) = _
  congr 1; funext a; apply Fin.ext
  obtain ⟨e0, e1, -⟩ := win_index t
  match a with
  | ⟨0, _⟩ => show win0_0.index t (0 : Fin 2) * 480 + 1 * p.val = t.val * 480 + p.val; omega
  | ⟨1, _⟩ => show win0_0.index t (1 : Fin 2) * 4 + 1 * k.val = k.val; omega

/-- The query-box block likewise. -/
theorem blk1_at (c : Dev nD) (t : Fin cfg0.N) (p : Fin 480) (k : Fin 4) :
    iblk m c 1 t (ix2 p k) = (V (F := Ideal) m c main_v1 : S14400x4.Idx → EReal) (ix2 (flatRow t p) k) := by
  show (V (F := Ideal) m c main_v1 : S14400x4.Idx → EReal) (((cfg0.win 1).blk t).view.emb (ix2 p k)) = _
  congr 1; funext a; apply Fin.ext
  obtain ⟨-, -, e0, e1, -⟩ := win_index t
  match a with
  | ⟨0, _⟩ => show win0_1.index t (0 : Fin 2) * 480 + 1 * p.val = t.val * 480 + p.val; omega
  | ⟨1, _⟩ => show win0_1.index t (1 : Fin 2) * 4 + 1 * k.val = k.val; omega

/-- The table's block is the whole table at every point. -/
theorem blk2_at (c : Dev nD) (t : Fin cfg0.N) (r : Fin 16) (q : Fin 1600) :
    iblk m c 2 t (ix2 r q) = (V (F := Ideal) m c main_v40 : S16x1600.Idx → EReal) (ix2 r q) := by
  show (V (F := Ideal) m c main_v40 : S16x1600.Idx → EReal) (((cfg0.win 2).blk t).view.emb (ix2 r q)) = _
  congr 1; funext a; apply Fin.ext
  obtain ⟨-, -, -, -, e0, e1, -⟩ := win_index t
  match a with
  | ⟨0, _⟩ => show win0_2.index t (0 : Fin 2) * 16 + 1 * r.val = r.val; omega
  | ⟨1, _⟩ => show win0_2.index t (1 : Fin 2) * 1600 + 1 * q.val = q.val; omega

/-- Entry `(p, q)` of the output block at point `t` is entry `(480 t + p, q)` of the flat result. -/
theorem emb3_at (t : Fin cfg0.N) (p : Fin 480) (q : Fin 1600) :
    ((cfg0.win 3).blk t).view.emb (ix2 p q) = (ix2 (flatRow t p) q : S14400x1600.Idx) := by
  funext a; apply Fin.ext
  obtain ⟨-, -, -, -, -, -, e0, e1⟩ := win_index t
  match a with
  | ⟨0, _⟩ => show win0_3.index t (0 : Fin 2) * 480 + 1 * p.val = t.val * 480 + p.val; omega
  | ⟨1, _⟩ => show win0_3.index t (1 : Fin 2) * 1600 + 1 * q.val = q.val; omega

/-- What point `t` writes back is block `t` of `flatCost`. -/
theorem flushed3_eq (c : Dev nD) (t : Fin cfg0.N) :
    (dats m 0 c).flushed 3 t = ((cfg0.win 3).blk t).view.read (Elt Ideal) (flatCost m c) := by
  show (cfg0.win 3).cut (grid0.coords t) ((dats m 0 c).after 3 t) = _
  rw [after3]
  funext j
  obtain ⟨p, q, rfl⟩ : ∃ (p : Fin 480) (q : Fin 1600), j = ix2 p q := ⟨j 0, j 1, eq_ix2 j⟩
  show outBlk (iblk m c 0 t) (iblk m c 1 t) (iblk m c 2 t) (ix2 p q) = flatCost m c (((cfg0.win 3).blk t).view.emb (ix2 p q))
  refine (outBlk_apply (iblk m c 0 t) (iblk m c 1 t) (iblk m c 2 t) p q).trans ?_
  rw [emb3_at]
  simp only [blk0_at, blk1_at, blk2_at]
  rfl

/-- An index of the flat result is in point `t`'s block iff its row is in that block's range (the block spans
    all the columns). -/
theorem mem_blk3 (t : Fin cfg0.N) (i : S14400x1600.Idx) :
    i ∈ ((cfg0.win 3).blk t).view.set ↔ ∀ a : Fin 2, win0_3.index t a * S480x1600.size a ≤ (i a).val ∧ (i a).val < win0_3.index t a * S480x1600.size a + S480x1600.size a := by
  show i ∈ ((View.whole main_v41).slice (win0_3.rect t)).set ↔ _
  rw [View.set_slice_whole, Rect.mem_set_unit]
  exact Iff.rfl

/-- Every index of the flat result is in the block of the point `row / 480`. -/
theorem cover3 (i : S14400x1600.Idx) :
    ∃ t : Fin cfg0.N, (cfg0.win 3).flush t = true ∧ i ∈ ((cfg0.win 3).blk t).view.set := by
  have hi0 : (i 0).val < 14400 := (i 0).isLt
  have hi1 : (i 1).val < 1600 := (i 1).isLt
  let t : Fin cfg0.N := ⟨(i 0).val / 480, by rw [show cfg0.N = 30 from N_0]; omega⟩
  obtain ⟨-, -, -, -, -, -, e0, e1⟩ := win_index t
  have ht : t.val = (i 0).val / 480 := rfl
  refine ⟨t, flush0_3 t, ?_⟩
  rw [mem_blk3]
  intro a
  match a with
  | ⟨0, _⟩ => show win0_3.index t (0 : Fin 2) * 480 ≤ (i 0).val ∧ (i 0).val < win0_3.index t (0 : Fin 2) * 480 + 480; omega
  | ⟨1, _⟩ => show win0_3.index t (1 : Fin 2) * 1600 ≤ (i 1).val ∧ (i 1).val < win0_3.index t (1 : Fin 2) * 1600 + 1600; omega

/-- The flat result after the region. -/
theorem final3 (c : Dev nD) : (dats m 0 c).arrAt 3 cfg0.N = flatCost m c :=
  (dats m 0 c).arrAt_eq_of_cover 3 (flatCost m c) (fun t _ => flushed3_eq m c t) cover3

/-! ## The line after the region, and the result at an index -/

/-- The last line reshapes the flat result to 16 × 900 × 1600. -/
theorem tail_result (c : Dev nD) :
    (Pipeline.afterTail₀ cfgs (dats m) 0 (V0 m) [hostOps1] c main_v42 : S16x900x1600.Idx → EReal)
      = shapeCast S16x900x1600 (flatCost m c) shapeCasts_S14400x1600_S16x900x1600 := by
  unfold Pipeline.afterTail₀
  show StableHlo.after hostOps1 _ (Proc.devRef .tc main_v42) = _
  after_results
  have e : Pipeline.withArrays (cfgs 0).spec c (V0 m c) (fun w => (dats m 0 c).arrAt w (cfgs 0).N) (Proc.devRef .tc main_v41)
      = flatCost m c :=
    (Pipeline.withArrays_arr spec0 launch0.win.arr_inj c _ _ 3).trans (final3 m c)
  funext i
  exact congrFun (congrArg (fun X => shapeCast S16x900x1600 X shapeCasts_S14400x1600_S16x900x1600) e) i

/-- Entry `(b, qq, t)` of the reshaped result is entry `(900 b + qq, t)` of the flat one. -/
theorem reshape_at (X : S14400x1600.Idx → EReal) (b : Fin 16) (qq : Fin 900) (t : Fin 1600) :
    shapeCast S16x900x1600 X shapeCasts_S14400x1600_S16x900x1600 (ix3 b qq t) = X (ix2 (rowOf b qq) t) :=
  shapeCast_apply X shapeCasts_S14400x1600_S16x900x1600 (ix3 b qq t) (ix2 (rowOf b qq) t)
    (by rewrite [Shape.rowMajor_val_two, Shape.rowMajor_val_three]
        show (b.val * 900 + qq.val) * 1600 + t.val = (b.val * 900 + qq.val) * 1600 + t.val
        rfl)

/-- The flat result at row `900 b + qq` and column `t`, from the argument arrays. -/
theorem flatCost_at (c : Dev nD) (b : Fin 16) (qq : Fin 900) (t : Fin 1600) :
    flatCost m c (ix2 (rowOf b qq) t)
      = kernelCost (m ((c : Thread nD τ).loc main_arg0)) (m ((c : Thread nD τ).loc main_arg1))
          (m ((c : Thread nD τ).loc main_arg2)) (m ((c : Thread nD τ).loc main_arg3)) (ix3 b qq t) := by
  show Cert.Cost.costDot
      (fun k : Fin 4 => (V (F := Ideal) m c main_v0 : S14400x4.Idx → EReal) (ix2 (rowOf b qq) k))
      (fun k : Fin 4 => (V (F := Ideal) m c main_v1 : S14400x4.Idx → EReal) (ix2 (rowOf b qq) k))
      (fun k : Fin 4 => (V (F := Ideal) m c main_v40 : S16x1600.Idx → EReal) (ix2 (⟨k.val, by omega⟩ : Fin 16) t))
      (fun k : Fin 4 => (V (F := Ideal) m c main_v40 : S16x1600.Idx → EReal) (ix2 (⟨4 + k.val, by omega⟩ : Fin 16) t))
      ((V (F := Ideal) m c main_v40 : S16x1600.Idx → EReal) (ix2 (8 : Fin 16) t))
      ((V (F := Ideal) m c main_v40 : S16x1600.Idx → EReal) (ix2 (9 : Fin 16) t))
      ((V (F := Ideal) m c main_v40 : S16x1600.Idx → EReal) (ix2 (10 : Fin 16) t))
      ((V (F := Ideal) m c main_v40 : S16x1600.Idx → EReal) (ix2 (11 : Fin 16) t))
      ((V (F := Ideal) m c main_v40 : S16x1600.Idx → EReal) (ix2 (12 : Fin 16) t)) = _
  rw [funext fun k : Fin 4 => V_logits_apply m c b qq k, funext fun k : Fin 4 => V_boxes_apply m c b qq k,
    funext fun k : Fin 4 => V_tab_box m c k t, funext fun k : Fin 4 => V_tab_onehot m c k t,
    V_tab_x1 m c t, V_tab_y1 m c t, V_tab_x2 m c t, V_tab_y2 m c t, V_tab_area m c t]
  rfl

/-- The result array after the whole program, as a function of the argument arrays. -/
theorem result_eq (c : Dev nD) :
    (Pipeline.afterTail₀ cfgs (dats m) 0 (V0 m) [hostOps1] c main_v42 : S16x900x1600.Idx → EReal)
      = kernelCost (m ((c : Thread nD τ).loc main_arg0)) (m ((c : Thread nD τ).loc main_arg1))
          (m ((c : Thread nD τ).loc main_arg2)) (m ((c : Thread nD τ).loc main_arg3)) := by
  rw [tail_result]
  funext i
  obtain ⟨b, qq, t, rfl⟩ : ∃ (b : Fin 16) (qq : Fin 900) (t : Fin 1600), i = ix3 b qq t := ⟨i 0, i 1, i 2, eq_ix3 i⟩
  rw [reshape_at, flatCost_at]

/-! ## The run -/

/-- Every weakly fair execution of the kernel's program terminates with the result at `kernelCost` of the argument
    arrays, the arguments unchanged. -/
theorem kernel_run : θ_run defs (onTc (τ := τ) (main (F := Ideal))) ⟨m, fun _ => 0, ρ⟩ (fun r => ∀ c : Dev nD,
      r.2.mem ((c.tc : Thread nD τ).loc main_v42)
        = kernelCost (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v42 (Pipeline.mem_restRefs_of main_v42 (by decide) (by decide))).trans (result_eq m c),
       ((h c).2 main_arg0 (Pipeline.mem_restRefs_of main_arg0 (by decide) (by decide))).trans (W_main_arg0 m c),
       ((h c).2 main_arg1 (Pipeline.mem_restRefs_of main_arg1 (by decide) (by decide))).trans (W_main_arg1 m c),
       ((h c).2 main_arg2 (Pipeline.mem_restRefs_of main_arg2 (by decide) (by decide))).trans (W_main_arg2 m c),
       ((h c).2 main_arg3 (Pipeline.mem_restRefs_of main_arg3 (by decide) (by decide))).trans (W_main_arg3 m c)⟩)
    (run_main m ρ)

end Cert.KernelIdeal.Hand

end
-- ==== Proof.LibGatherCols.lean ====
/-
  A gather of whole columns read at an index.

  For an operand of C rows and N columns and a column of M start indices, the gather whose offset axis is the row axis,
  whose collapsed axis is the column axis and whose start index names the column — what  x[:, idx]  lowers to for a
  rank-2 x and a rank-1 idx — has at (c, n) the operand's entry in row c and in the column given by the n-th start index,
  read as a signed integer and clamped into [0, N − 1] (negative to 0, too large to N − 1). General in C, N, M and in the
  width of the index words; a program's own record of these dimension numbers is this one up to its proof field.
-/
import Idealize.ShloMosaic.PureOps.Ideal
import Idealize.ShloMosaic.Lib.ValueIdx

noncomputable section

namespace Idealize.ShloMosaic.GatherCols

open Idealize.ShloMosaic Idealize.ShloMosaic.ValueIdx

variable {α : Type}

/-- Those dimension numbers for an operand [C, N], start indices [M, 1] and result [C, M]; their conditions wf are decided
    on a program's literal shapes. -/
abbrev colDims (C N M : Nat) (wf : GatherDims.WF ⟨2, ![C, N]⟩ ⟨2, ![M, 1]⟩ ⟨2, ![C, M]⟩ [0] [1] [] [1] [] 1 ![C, 1]) :
    GatherDims ⟨2, ![C, N]⟩ ⟨2, ![M, 1]⟩ ⟨2, ![C, M]⟩ where
  offsetDims := [0]
  collapsedSliceDims := [1]
  operandBatchingDims := []
  startIndicesBatchingDims := []
  startIndexMap := [1]
  indexVectorDim := 1
  sliceSizes := ![C, 1]
  wf := wf

/-- Of the two operand axes the row axis is not the one the start index names. -/
private theorem zero_not_mem_one : (0 : Fin 2) ∉ ([1] : List (Fin 2)) := by decide

/-- Of the two operand axes the row axis alone is neither collapsed nor batching. -/
private theorem kept_eq : (List.finRange 2).filter (fun a : Fin 2 => decide (a ∉ ([1] ++ [] : List (Fin 2)))) = [0] := by decide

/-- The first offset axis, found through the position of the row axis among the kept axes, is the result's axis 0. -/
private theorem off_axis {C M : Nat} (c : Fin C) (n : Fin M) (l : List (Fin 2)) (hl : l = [0])
    (h : List.idxOf (0 : Fin 2) l < ([0] : List (Fin 2)).length) :
    (ix2 c n (([0] : List (Fin 2))[List.idxOf (0 : Fin 2) l]'h)).val = c.val := by
  subst hl; rfl

/-- THE GATHER READ AT (c, n): row c, column the n-th start index read signed and clamped into [0, N − 1]. -/
theorem gather_cols_apply {C N M w : Nat} (hN : 0 < N)
    (wf : GatherDims.WF ⟨2, ![C, N]⟩ ⟨2, ![M, 1]⟩ ⟨2, ![C, M]⟩ [0] [1] [] [1] [] 1 ![C, 1])
    (x : (⟨2, ![C, N]⟩ : Shape).Idx → α) (idx : IVec ⟨2, ![M, 1]⟩ w) (c : Fin C) (n : Fin M) :
    Host.gather (colDims C N M wf) x idx (ix2 c n)
      = x (ix2 c ⟨min (idx (ix2 n 0)).toInt.toNat (N - 1), by omega⟩) := by
  unfold Host.gather
  congr 1
  funext a
  refine Fin.ext ?_
  show (colDims C N M wf).start (ix2 c n) idx a + (colDims C N M wf).batchCoord (ix2 c n) a
      + (colDims C N M wf).offCoord (ix2 c n) a = _
  rw [GatherDims.batchCoord_eq_zero _ _ _ List.not_mem_nil]
  match a with
  | ⟨0, _⟩ =>
    -- the row axis: no start index, no batching; the offset coordinate is the row
    have h0 : (⟨0, by decide⟩ : Fin 2) ∉ (colDims C N M wf).startIndexMap := zero_not_mem_one
    have hs : (colDims C N M wf).sKept = [0] := kept_eq
    have hk : (⟨0, by decide⟩ : Fin 2) ∈ (colDims C N M wf).sKept := by
      rw [hs]; exact List.mem_singleton.mpr rfl
    unfold GatherDims.start
    rw [dif_neg h0]
    unfold GatherDims.offCoord
    rw [dif_pos hk]
    simp only [Nat.zero_add]
    exact off_axis c n _ hs _
  | ⟨1, _⟩ =>
    -- the column axis: collapsed, so the offset coordinate is zero and the start index alone names the column
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims C N M wf).startIndexMap from List.mem_singleton.mpr rfl)]
    have hsi : (colDims C N M wf).siIdx (ix2 c n) ⟨List.idxOf (⟨1, by decide⟩ : Fin 2) (colDims C N M wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl

end Idealize.ShloMosaic.GatherCols

end
-- ==== Proof.RefValue.lean ====
/-
  The reference's result read at an index, over the extended reals.

  The reference flattens the queries of all batches into 14400 rows (query `qq` of batch `b` is row `900 b + qq`), builds
  every term of the matching cost as a 14400 × 1600 table over (row, target), adds the three tables and folds the rows back
  into (batch, query). Read at `(b, qq, t)` the outcome is the per-pair cost `costSel` of the specification at the logits and
  the box of that query, the box of target `t`, and the class that target's label selects:
    * each logit goes through `1 / (1 + exp (-l))`, the two focal costs are formed per class, and the columns named by the
      labels are gathered — a label is wrapped by the number of classes when negative, then read signed and clamped into range;
    * the L1 term is the zero word plus the sum over the four coordinates of the absolute differences;
    * both box arrays are turned into corner form by stacking four one-column arrays, areas come from the stacked corners,
      and the overlap and the enclosing box come from coordinatewise minima and maxima clipped below at the zero word
      (the clip is `max 0 x`; `max` is commutative);
    * the three terms carry the unit weight, the word of one, which is left as it is on both sides.
  Every layout step only moves entries, so each stage is read by following an index through it; the only arithmetic on
  indices is splitting a flat position back into its coordinates.
-/
import proofs.«415464_j68289980007125_3_alg».proof.Proof.Gen.ReferenceIdeal.Read
import proofs.«415464_j68289980007125_3_alg».proof.Proof.Spec
import proofs.«415464_j68289980007125_3_alg».proof.Proof.LibGatherCols
import Mathlib.Order.MinMax
import Mathlib.Algebra.BigOperators.Group.Finset.Basic
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-! ## Indices from their coordinates -/

/-- Two rank-1 indices with the same coordinate are the same index. -/
theorem idx1_ext {n0 : Nat} {i j : (⟨1, ![n0]⟩ : Shape).Idx} (h0 : (i 0).val = (j 0).val) : i = j :=
  funext fun a => Fin.ext (by match a with | ⟨0, _⟩ => exact h0)

/-- Two rank-2 indices with the same coordinates are the same index. -/
theorem idx2_ext {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Two rank-3 indices with the same coordinates are the same index. -/
theorem idx3_ext {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- The arguments' types. -/
abbrev QArr : Type := (⟨S16x900x4, .f32⟩ : BufTy).Contents (Elt Ideal)
abbrev TArr : Type := (⟨S1600x4, .f32⟩ : BufTy).Contents (Elt Ideal)
abbrev LArr : Type := (⟨S1600, .i32⟩ : BufTy).Contents (Elt Ideal)

/-- Query `qq` of batch `b` is row `900 b + qq` of the flattened query arrays. -/
def row (b : Fin 16) (qq : Fin 900) : Fin 14400 :=
  ⟨b.val * 900 + qq.val, by have := b.isLt; have := qq.isLt; omega⟩

/-- The flattened logits at row `900 b + qq` are the logits of query `qq` of batch `b`. -/
theorem logits_row (a0 : QArr) (b : Fin 16) (qq : Fin 900) (k : Fin 4) :
    val_main_v0 (F := Ideal) a0 (ix2 (row b qq) k) = a0 (ix3 b qq k) := by
  rw [val_main_v0_apply]
  refine congrArg a0 (idx3_ext ?_ ?_ ?_)
  · show ((b.val * 900 + qq.val) * 4 + k.val) / 3600 = b.val
    have := qq.isLt; have := k.isLt; omega
  · show ((b.val * 900 + qq.val) * 4 + k.val) / 4 % 900 = qq.val
    have := qq.isLt; have := k.isLt; omega
  · show ((b.val * 900 + qq.val) * 4 + k.val) % 4 = k.val
    have := k.isLt; omega

/-- The flattened query boxes at row `900 b + qq` are the box of query `qq` of batch `b`. -/
theorem boxes_row (a1 : QArr) (b : Fin 16) (qq : Fin 900) (k : Fin 4) :
    val_main_v7 (F := Ideal) a1 (ix2 (row b qq) k) = a1 (ix3 b qq k) := by
  rw [val_main_v7_apply]
  refine congrArg a1 (idx3_ext ?_ ?_ ?_)
  · show ((b.val * 900 + qq.val) * 4 + k.val) / 3600 = b.val
    have := qq.isLt; have := k.isLt; omega
  · show ((b.val * 900 + qq.val) * 4 + k.val) / 4 % 900 = qq.val
    have := qq.isLt; have := k.isLt; omega
  · show ((b.val * 900 + qq.val) * 4 + k.val) % 4 = k.val
    have := k.isLt; omega

/-- A flat position `1600 r + t` splits back into the row `r` and the column `t`. -/
theorem split_pair (r : Fin 14400) (t : Fin 1600) :
    (r.val * 1600 + t.val) / 1600 = r.val ∧ (r.val * 1600 + t.val) / 1 % 1600 = t.val := by
  have := t.isLt; omega

/-! ## The class a label selects -/

/-- The class the gather reads for a label word: a negative label is first wrapped by adding the number of classes, and the
    outcome, read as a signed integer, is clamped into `[0, 3]`. -/
def selIdx (w : BitVec 32) : Fin 4 :=
  ⟨min (Scalar.select (IntOp.cmpi .slt w 0#32) (IntOp.addi w 4#32) w).toInt.toNat 3, by omega⟩

/-- A label already in range selects its own class. -/
theorem selIdx_ofNat (k : Fin 4) : selIdx (BitVec.ofNat 32 k.val) = k := by
  match k with
  | ⟨0, _⟩ => rfl
  | ⟨1, _⟩ => rfl
  | ⟨2, _⟩ => rfl
  | ⟨3, _⟩ => rfl

/-! ## The classification term -/

/-- The class probability, written out by the program as `1 / (1 + exp (-l))` with the word of one. -/
theorem prob_at (a0 : QArr) (i : S14400x4.Idx) :
    val_main_v6 (F := Ideal) a0 i = Cost.prob (val_main_v0 (F := Ideal) a0 i) := by
  simp only [val_main_v6_apply, val_main_v5_apply, val_main_cst_0_apply, val_main_v4_apply, val_main_v3_apply,
    val_main_cst_apply, val_main_v2_apply, val_main_v1_apply, Ideal.hostDivf_def, Ideal.addf_def,
    Ideal.hostUnary_exp_def, Ideal.hostNegf_def, Ideal.negf_def, Ideal.ofBits_def, Ideal.ofBits_one_f32]
  rfl

/-- The negative-class cost of a logit. -/
theorem negPow_at (a0 : QArr) (i : S14400x4.Idx) :
    val_main_v18 (F := Ideal) a0 i = Cost.negPow (val_main_v0 (F := Ideal) a0 i) := by
  simp only [val_main_v18_apply, val_main_v11_apply, val_main_v10_apply, val_main_cst_2_apply, val_main_v9_apply,
    val_main_v8_apply, val_main_cst_1_apply, val_main_v17_apply, val_main_v16_apply, val_main_v15_apply,
    val_main_v13_apply, val_main_v12_apply, val_main_cst_3_apply, val_main_v14_apply, val_main_cst_4_apply, prob_at,
    Ideal.mulf_def, Ideal.hostPowf_def, Ideal.hostNegf_def, Ideal.negf_def, Ideal.hostUnary_log_def, Ideal.addf_def,
    Ideal.subf_def, Ideal.ofBits_def]
  rfl

/-- The positive-class cost of a logit. -/
theorem posPow_at (a0 : QArr) (i : S14400x4.Idx) :
    val_main_v29 (F := Ideal) a0 i = Cost.posPow (val_main_v0 (F := Ideal) a0 i) := by
  simp only [val_main_v29_apply, val_main_v24_apply, val_main_v23_apply, val_main_cst_7_apply, val_main_v22_apply,
    val_main_v21_apply, val_main_cst_6_apply, val_main_v20_apply, val_main_v19_apply, val_main_cst_5_apply,
    val_main_v28_apply, val_main_v27_apply, val_main_v26_apply, val_main_v25_apply, val_main_cst_8_apply, prob_at,
    Ideal.mulf_def, Ideal.hostPowf_def, Ideal.hostNegf_def, Ideal.negf_def, Ideal.hostUnary_log_def, Ideal.addf_def,
    Ideal.subf_def, Ideal.ofBits_def]
  rfl

/-- The program's gather of whole columns at `(r, t)`: row `r` of the operand at the column the `t`-th start index names, read
    signed and clamped into `[0, 3]`. -/
theorem gather_at (x : (⟨S14400x4, .f32⟩ : BufTy).Contents (Elt Ideal)) (idx : (⟨S1600x1, .i32⟩ : BufTy).Contents (Elt Ideal))
    (r : Fin 14400) (t : Fin 1600) :
    Host.gather gather_S14400x4_S1600x1_S14400x1600_0_1_n_n_1_1_144001 x idx (ix2 r t)
      = x (ix2 r ⟨min (idx (ix2 t 0)).toInt.toNat 3, by omega⟩) :=
  GatherCols.gather_cols_apply (by decide) gather_S14400x4_S1600x1_S14400x1600_0_1_n_n_1_1_144001_wf x idx r t

/-- The start index the program hands the gather for target `t`: the label, wrapped when negative. -/
theorem start_at (a3 : LArr) (t : Fin 1600) :
    val_main_v35 (F := Ideal) a3 (ix2 t 0)
      = Scalar.select (IntOp.cmpi .slt (a3 (ix1 t)) 0#32) (IntOp.addi (a3 (ix1 t)) 4#32) (a3 (ix1 t)) := by
  have e : idx_main_v35 (ix2 t (0 : Fin 1)) = ix1 t := idx1_ext rfl
  simp only [val_main_v35_apply, val_main_v34_apply, val_main_v31_apply, val_main_v33_apply, val_main_v30_apply,
    val_main_v32_apply, val_main_c_apply, val_main_c_9_apply, e]

/-- The second gather is handed the same start index. -/
theorem start_at' (a3 : LArr) (t : Fin 1600) :
    val_main_v42 (F := Ideal) a3 (ix2 t 0)
      = Scalar.select (IntOp.cmpi .slt (a3 (ix1 t)) 0#32) (IntOp.addi (a3 (ix1 t)) 4#32) (a3 (ix1 t)) := by
  have e : idx_main_v42 (ix2 t (0 : Fin 1)) = ix1 t := idx1_ext rfl
  simp only [val_main_v42_apply, val_main_v41_apply, val_main_v38_apply, val_main_v40_apply, val_main_v37_apply,
    val_main_v39_apply, val_main_c_10_apply, val_main_c_11_apply, e]

/-- The gathered positive-class costs: at `(r, t)` the cost of row `r` at the class target `t`'s label selects. -/
theorem pos_gathered (a0 : QArr) (a3 : LArr) (r : Fin 14400) (t : Fin 1600) :
    val_main_v36 (F := Ideal) a0 a3 (ix2 r t)
      = Cost.posPow (val_main_v0 (F := Ideal) a0 (ix2 r (selIdx (a3 (ix1 t))))) := by
  unfold val_main_v36
  refine (gather_at _ _ r t).trans ?_
  rw [posPow_at]
  refine congrArg (fun j : Fin 4 => Cost.posPow (val_main_v0 (F := Ideal) a0 (ix2 r j))) (Fin.ext ?_)
  show min (val_main_v35 (F := Ideal) a3 (ix2 t 0)).toInt.toNat 3 = (selIdx (a3 (ix1 t))).val
  rw [start_at]
  rfl

/-- The gathered negative-class costs, likewise. -/
theorem neg_gathered (a0 : QArr) (a3 : LArr) (r : Fin 14400) (t : Fin 1600) :
    val_main_v43 (F := Ideal) a0 a3 (ix2 r t)
      = Cost.negPow (val_main_v0 (F := Ideal) a0 (ix2 r (selIdx (a3 (ix1 t))))) := by
  unfold val_main_v43
  refine (gather_at _ _ r t).trans ?_
  rw [negPow_at]
  refine congrArg (fun j : Fin 4 => Cost.negPow (val_main_v0 (F := Ideal) a0 (ix2 r j))) (Fin.ext ?_)
  show min (val_main_v42 (F := Ideal) a3 (ix2 t 0)).toInt.toNat 3 = (selIdx (a3 (ix1 t))).val
  rw [start_at']
  rfl

/-- The classification term at `(r, t)`. -/
theorem cls_at (a0 : QArr) (a3 : LArr) (r : Fin 14400) (t : Fin 1600) :
    val_main_v44 (F := Ideal) a0 a3 (ix2 r t)
      = Cost.posPow (val_main_v0 (F := Ideal) a0 (ix2 r (selIdx (a3 (ix1 t)))))
        - Cost.negPow (val_main_v0 (F := Ideal) a0 (ix2 r (selIdx (a3 (ix1 t))))) := by
  rw [val_main_v44_apply, pos_gathered, neg_gathered]
  rfl

/-! ## The L1 term -/

/-- The L1 distance at `(r, t)`: the zero word plus the sum over the four coordinates of the absolute differences. -/
theorem l1_at (a1 : QArr) (a2 : TArr) (r : Fin 14400) (t : Fin 1600) :
    val_main_v51 (F := Ideal) a1 a2 (ix2 r t)
      = Cost.l1Sum (fun k : Fin 4 => val_main_v7 (F := Ideal) a1 (ix2 r k)) (fun k : Fin 4 => a2 (ix2 t k)) := by
  rw [val_main_v51_apply]
  unfold Cost.l1Sum
  refine congrArg₂ (· + ·) rfl (Finset.sum_congr rfl fun k _ => ?_)
  have e1 : idx_main_v45 (idx_main_v47 (idx_main_v51 (ix2 r t) k)) = ix2 r k := idx2_ext rfl rfl
  have e2 : idx_main_v46 (idx_main_v48 (idx_main_v51 (ix2 r t) k)) = ix2 t k := idx2_ext rfl rfl
  simp only [val_main_v50_apply, val_main_v49_apply, val_main_v47_apply, val_main_v45_apply, val_main_v48_apply,
    val_main_v46_apply, e1, e2, Ideal.hostAbsf_def, Ideal.absf_def, Ideal.subf_def]
  rfl

/-! ## The corners of the boxes -/

/-- Four one-column arrays stacked side by side: column `c` of the stack is the `c`-th array. -/
theorem stack4_at {α : Type} {N : Nat} (u0 u1 u2 u3 : (⟨2, ![N, 1]⟩ : Shape).Idx → α)
    (h : Shape.Concatenates [⟨2, ![N, 1]⟩, ⟨2, ![N, 1]⟩, ⟨2, ![N, 1]⟩, ⟨2, ![N, 1]⟩] ⟨2, ![N, 4]⟩ 1) (r : Fin N) :
    concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h (ix2 r (0 : Fin 4))
        = u0 (ix2 r (0 : Fin 1))
      ∧ concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h (ix2 r (1 : Fin 4))
        = u1 (ix2 r (0 : Fin 1))
      ∧ concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h (ix2 r (2 : Fin 4))
        = u2 (ix2 r (0 : Fin 1))
      ∧ concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h (ix2 r (3 : Fin 4))
        = u3 (ix2 r (0 : Fin 1)) := by
  refine ⟨?_, ?_, ?_, ?_⟩
  · exact concatenate_apply_piece (t := ⟨2, ![N, 4]⟩) 1
      [⟨⟨2, ![N, 1]⟩, u0⟩, ⟨⟨2, ![N, 1]⟩, u1⟩, ⟨⟨2, ![N, 1]⟩, u2⟩, ⟨⟨2, ![N, 1]⟩, u3⟩] h (ix2 r (0 : Fin 4)) 0 (by show (0 : Nat) < 4; decide)
      ⟨2, ![N, 1]⟩ u0 rfl rfl 0 rfl (ix2 r (0 : Fin 1))
      (fun b hb => by match b with | ⟨0, _⟩ => rfl | ⟨1, _⟩ => exact absurd rfl hb) rfl
  · exact concatenate_apply_piece (t := ⟨2, ![N, 4]⟩) 1
      [⟨⟨2, ![N, 1]⟩, u0⟩, ⟨⟨2, ![N, 1]⟩, u1⟩, ⟨⟨2, ![N, 1]⟩, u2⟩, ⟨⟨2, ![N, 1]⟩, u3⟩] h (ix2 r (1 : Fin 4)) 1 (by show (1 : Nat) < 4; decide)
      ⟨2, ![N, 1]⟩ u1 rfl rfl 1 rfl (ix2 r (0 : Fin 1))
      (fun b hb => by match b with | ⟨0, _⟩ => rfl | ⟨1, _⟩ => exact absurd rfl hb) rfl
  · exact concatenate_apply_piece (t := ⟨2, ![N, 4]⟩) 1
      [⟨⟨2, ![N, 1]⟩, u0⟩, ⟨⟨2, ![N, 1]⟩, u1⟩, ⟨⟨2, ![N, 1]⟩, u2⟩, ⟨⟨2, ![N, 1]⟩, u3⟩] h (ix2 r (2 : Fin 4)) 2 (by show (2 : Nat) < 4; decide)
      ⟨2, ![N, 1]⟩ u2 rfl rfl 2 rfl (ix2 r (0 : Fin 1))
      (fun b hb => by match b with | ⟨0, _⟩ => rfl | ⟨1, _⟩ => exact absurd rfl hb) rfl
  · exact concatenate_apply_piece (t := ⟨2, ![N, 4]⟩) 1
      [⟨⟨2, ![N, 1]⟩, u0⟩, ⟨⟨2, ![N, 1]⟩, u1⟩, ⟨⟨2, ![N, 1]⟩, u2⟩, ⟨⟨2, ![N, 1]⟩, u3⟩] h (ix2 r (3 : Fin 4)) 3 (by show (3 : Nat) < 4; decide)
      ⟨2, ![N, 1]⟩ u3 rfl rfl 3 rfl (ix2 r (0 : Fin 1))
      (fun b hb => by match b with | ⟨0, _⟩ => rfl | ⟨1, _⟩ => exact absurd rfl hb) rfl

/-- The left edge of query box `r`: centre minus half the width. -/
theorem q_x1 (a1 : QArr) (r : Fin 14400) :
    val_main_v62 (F := Ideal) a1 (ix1 r) = Cost.x1 (fun k : Fin 4 => val_main_v7 (F := Ideal) a1 (ix2 r k)) := by
  have eA : idx_main_v52 (idx_main_v53 (ix1 r)) = ix2 r (0 : Fin 4) := idx2_ext (Nat.div_one _) rfl
  have eB : idx_main_v56 (idx_main_v57 (ix1 r)) = ix2 r (2 : Fin 4) := idx2_ext (Nat.div_one _) rfl
  simp only [val_main_v62_apply, val_main_v61_apply, val_main_v60_apply, val_main_cst_13_apply,
    val_main_v53_apply, val_main_v52_apply, val_main_v57_apply, val_main_v56_apply, eA, eB, Ideal.subf_def,
    Ideal.mulf_def, Ideal.ofBits_def]
  rfl

/-- The top edge of query box `r`: centre minus half the height. -/
theorem q_y1 (a1 : QArr) (r : Fin 14400) :
    val_main_v65 (F := Ideal) a1 (ix1 r) = Cost.y1 (fun k : Fin 4 => val_main_v7 (F := Ideal) a1 (ix2 r k)) := by
  have eA : idx_main_v54 (idx_main_v55 (ix1 r)) = ix2 r (1 : Fin 4) := idx2_ext (Nat.div_one _) rfl
  have eB : idx_main_v58 (idx_main_v59 (ix1 r)) = ix2 r (3 : Fin 4) := idx2_ext (Nat.div_one _) rfl
  simp only [val_main_v65_apply, val_main_v64_apply, val_main_v63_apply, val_main_cst_14_apply,
    val_main_v55_apply, val_main_v54_apply, val_main_v59_apply, val_main_v58_apply, eA, eB, Ideal.subf_def,
    Ideal.mulf_def, Ideal.ofBits_def]
  rfl

/-- The right edge of query box `r`: centre plus half the width. -/
theorem q_x2 (a1 : QArr) (r : Fin 14400) :
    val_main_v68 (F := Ideal) a1 (ix1 r) = Cost.x2 (fun k : Fin 4 => val_main_v7 (F := Ideal) a1 (ix2 r k)) := by
  have eA : idx_main_v52 (idx_main_v53 (ix1 r)) = ix2 r (0 : Fin 4) := idx2_ext (Nat.div_one _) rfl
  have eB : idx_main_v56 (idx_main_v57 (ix1 r)) = ix2 r (2 : Fin 4) := idx2_ext (Nat.div_one _) rfl
  simp only [val_main_v68_apply, val_main_v67_apply, val_main_v66_apply, val_main_cst_15_apply,
    val_main_v53_apply, val_main_v52_apply, val_main_v57_apply, val_main_v56_apply, eA, eB, Ideal.addf_def,
    Ideal.mulf_def, Ideal.ofBits_def]
  rfl

/-- The bottom edge of query box `r`: centre plus half the height. -/
theorem q_y2 (a1 : QArr) (r : Fin 14400) :
    val_main_v71 (F := Ideal) a1 (ix1 r) = Cost.y2 (fun k : Fin 4 => val_main_v7 (F := Ideal) a1 (ix2 r k)) := by
  have eA : idx_main_v54 (idx_main_v55 (ix1 r)) = ix2 r (1 : Fin 4) := idx2_ext (Nat.div_one _) rfl
  have eB : idx_main_v58 (idx_main_v59 (ix1 r)) = ix2 r (3 : Fin 4) := idx2_ext (Nat.div_one _) rfl
  simp only [val_main_v71_apply, val_main_v70_apply, val_main_v69_apply, val_main_cst_16_apply,
    val_main_v55_apply, val_main_v54_apply, val_main_v59_apply, val_main_v58_apply, eA, eB, Ideal.addf_def,
    Ideal.mulf_def, Ideal.ofBits_def]
  rfl

/-- The left edge of target box `t`. -/
theorem t_x1 (a2 : TArr) (t : Fin 1600) :
    val_main_v87 (F := Ideal) a2 (ix1 t) = Cost.x1 (fun k : Fin 4 => a2 (ix2 t k)) := by
  have eA : idx_main_v77 (idx_main_v78 (ix1 t)) = ix2 t (0 : Fin 4) := idx2_ext (Nat.div_one _) rfl
  have eB : idx_main_v81 (idx_main_v82 (ix1 t)) = ix2 t (2 : Fin 4) := idx2_ext (Nat.div_one _) rfl
  simp only [val_main_v87_apply, val_main_v86_apply, val_main_v85_apply, val_main_cst_17_apply,
    val_main_v78_apply, val_main_v77_apply, val_main_v82_apply, val_main_v81_apply, eA, eB, Ideal.subf_def,
    Ideal.mulf_def, Ideal.ofBits_def]
  rfl

/-- The top edge of target box `t`. -/
theorem t_y1 (a2 : TArr) (t : Fin 1600) :
    val_main_v90 (F := Ideal) a2 (ix1 t) = Cost.y1 (fun k : Fin 4 => a2 (ix2 t k)) := by
  have eA : idx_main_v79 (idx_main_v80 (ix1 t)) = ix2 t (1 : Fin 4) := idx2_ext (Nat.div_one _) rfl
  have eB : idx_main_v83 (idx_main_v84 (ix1 t)) = ix2 t (3 : Fin 4) := idx2_ext (Nat.div_one _) rfl
  simp only [val_main_v90_apply, val_main_v89_apply, val_main_v88_apply, val_main_cst_18_apply,
    val_main_v80_apply, val_main_v79_apply, val_main_v84_apply, val_main_v83_apply, eA, eB, Ideal.subf_def,
    Ideal.mulf_def, Ideal.ofBits_def]
  rfl

/-- The right edge of target box `t`. -/
theorem t_x2 (a2 : TArr) (t : Fin 1600) :
    val_main_v93 (F := Ideal) a2 (ix1 t) = Cost.x2 (fun k : Fin 4 => a2 (ix2 t k)) := by
  have eA : idx_main_v77 (idx_main_v78 (ix1 t)) = ix2 t (0 : Fin 4) := idx2_ext (Nat.div_one _) rfl
  have eB : idx_main_v81 (idx_main_v82 (ix1 t)) = ix2 t (2 : Fin 4) := idx2_ext (Nat.div_one _) rfl
  simp only [val_main_v93_apply, val_main_v92_apply, val_main_v91_apply, val_main_cst_19_apply,
    val_main_v78_apply, val_main_v77_apply, val_main_v82_apply, val_main_v81_apply, eA, eB, Ideal.addf_def,
    Ideal.mulf_def, Ideal.ofBits_def]
  rfl

/-- The bottom edge of target box `t`. -/
theorem t_y2 (a2 : TArr) (t : Fin 1600) :
    val_main_v96 (F := Ideal) a2 (ix1 t) = Cost.y2 (fun k : Fin 4 => a2 (ix2 t k)) := by
  have eA : idx_main_v79 (idx_main_v80 (ix1 t)) = ix2 t (1 : Fin 4) := idx2_ext (Nat.div_one _) rfl
  have eB : idx_main_v83 (idx_main_v84 (ix1 t)) = ix2 t (3 : Fin 4) := idx2_ext (Nat.div_one _) rfl
  simp only [val_main_v96_apply, val_main_v95_apply, val_main_v94_apply, val_main_cst_20_apply,
    val_main_v80_apply, val_main_v79_apply, val_main_v84_apply, val_main_v83_apply, eA, eB, Ideal.addf_def,
    Ideal.mulf_def, Ideal.ofBits_def]
  rfl

/-- Column 0 of the stacked query corners is the x1 edge. -/
theorem qc_x1 (a1 : QArr) (r : Fin 14400) (i : S14400x4.Idx) (h0 : (i 0).val = r.val) (h1 : (i 1).val = 0) :
    val_main_v76 (F := Ideal) a1 i = Cost.x1 (fun k : Fin 4 => val_main_v7 (F := Ideal) a1 (ix2 r k)) := by
  obtain rfl : i = ix2 r (0 : Fin 4) := idx2_ext h0 h1
  unfold val_main_v76
  refine ((stack4_at (val_main_v72 (F := Ideal) a1) (val_main_v73 (F := Ideal) a1) (val_main_v74 (F := Ideal) a1)
    (val_main_v75 (F := Ideal) a1) concatenates_S14400x1_S14400x1_S14400x1_S14400x1_S14400x4_d1 r).1).trans ?_
  rw [val_main_v72_apply, show idx_main_v72 (ix2 r (0 : Fin 1)) = ix1 r from idx1_ext rfl]
  exact q_x1 a1 r

/-- Column 1 of the stacked query corners is the y1 edge. -/
theorem qc_y1 (a1 : QArr) (r : Fin 14400) (i : S14400x4.Idx) (h0 : (i 0).val = r.val) (h1 : (i 1).val = 1) :
    val_main_v76 (F := Ideal) a1 i = Cost.y1 (fun k : Fin 4 => val_main_v7 (F := Ideal) a1 (ix2 r k)) := by
  obtain rfl : i = ix2 r (1 : Fin 4) := idx2_ext h0 h1
  unfold val_main_v76
  refine ((stack4_at (val_main_v72 (F := Ideal) a1) (val_main_v73 (F := Ideal) a1) (val_main_v74 (F := Ideal) a1)
    (val_main_v75 (F := Ideal) a1) concatenates_S14400x1_S14400x1_S14400x1_S14400x1_S14400x4_d1 r).2.1).trans ?_
  rw [val_main_v73_apply, show idx_main_v73 (ix2 r (0 : Fin 1)) = ix1 r from idx1_ext rfl]
  exact q_y1 a1 r

/-- Column 2 of the stacked query corners is the x2 edge. -/
theorem qc_x2 (a1 : QArr) (r : Fin 14400) (i : S14400x4.Idx) (h0 : (i 0).val = r.val) (h1 : (i 1).val = 2) :
    val_main_v76 (F := Ideal) a1 i = Cost.x2 (fun k : Fin 4 => val_main_v7 (F := Ideal) a1 (ix2 r k)) := by
  obtain rfl : i = ix2 r (2 : Fin 4) := idx2_ext h0 h1
  unfold val_main_v76
  refine ((stack4_at (val_main_v72 (F := Ideal) a1) (val_main_v73 (F := Ideal) a1) (val_main_v74 (F := Ideal) a1)
    (val_main_v75 (F := Ideal) a1) concatenates_S14400x1_S14400x1_S14400x1_S14400x1_S14400x4_d1 r).2.2.1).trans ?_
  rw [val_main_v74_apply, show idx_main_v74 (ix2 r (0 : Fin 1)) = ix1 r from idx1_ext rfl]
  exact q_x2 a1 r

/-- Column 3 of the stacked query corners is the y2 edge. -/
theorem qc_y2 (a1 : QArr) (r : Fin 14400) (i : S14400x4.Idx) (h0 : (i 0).val = r.val) (h1 : (i 1).val = 3) :
    val_main_v76 (F := Ideal) a1 i = Cost.y2 (fun k : Fin 4 => val_main_v7 (F := Ideal) a1 (ix2 r k)) := by
  obtain rfl : i = ix2 r (3 : Fin 4) := idx2_ext h0 h1
  unfold val_main_v76
  refine ((stack4_at (val_main_v72 (F := Ideal) a1) (val_main_v73 (F := Ideal) a1) (val_main_v74 (F := Ideal) a1)
    (val_main_v75 (F := Ideal) a1) concatenates_S14400x1_S14400x1_S14400x1_S14400x1_S14400x4_d1 r).2.2.2).trans ?_
  rw [val_main_v75_apply, show idx_main_v75 (ix2 r (0 : Fin 1)) = ix1 r from idx1_ext rfl]
  exact q_y2 a1 r

/-- Column 0 of the stacked target corners is the x1 edge. -/
theorem tc_x1 (a2 : TArr) (t : Fin 1600) (i : S1600x4.Idx) (h0 : (i 0).val = t.val) (h1 : (i 1).val = 0) :
    val_main_v101 (F := Ideal) a2 i = Cost.x1 (fun k : Fin 4 => a2 (ix2 t k)) := by
  obtain rfl : i = ix2 t (0 : Fin 4) := idx2_ext h0 h1
  unfold val_main_v101
  refine ((stack4_at (val_main_v97 (F := Ideal) a2) (val_main_v98 (F := Ideal) a2) (val_main_v99 (F := Ideal) a2)
    (val_main_v100 (F := Ideal) a2) concatenates_S1600x1_S1600x1_S1600x1_S1600x1_S1600x4_d1 t).1).trans ?_
  rw [val_main_v97_apply, show idx_main_v97 (ix2 t (0 : Fin 1)) = ix1 t from idx1_ext rfl]
  exact t_x1 a2 t

/-- Column 1 of the stacked target corners is the y1 edge. -/
theorem tc_y1 (a2 : TArr) (t : Fin 1600) (i : S1600x4.Idx) (h0 : (i 0).val = t.val) (h1 : (i 1).val = 1) :
    val_main_v101 (F := Ideal) a2 i = Cost.y1 (fun k : Fin 4 => a2 (ix2 t k)) := by
  obtain rfl : i = ix2 t (1 : Fin 4) := idx2_ext h0 h1
  unfold val_main_v101
  refine ((stack4_at (val_main_v97 (F := Ideal) a2) (val_main_v98 (F := Ideal) a2) (val_main_v99 (F := Ideal) a2)
    (val_main_v100 (F := Ideal) a2) concatenates_S1600x1_S1600x1_S1600x1_S1600x1_S1600x4_d1 t).2.1).trans ?_
  rw [val_main_v98_apply, show idx_main_v98 (ix2 t (0 : Fin 1)) = ix1 t from idx1_ext rfl]
  exact t_y1 a2 t

/-- Column 2 of the stacked target corners is the x2 edge. -/
theorem tc_x2 (a2 : TArr) (t : Fin 1600) (i : S1600x4.Idx) (h0 : (i 0).val = t.val) (h1 : (i 1).val = 2) :
    val_main_v101 (F := Ideal) a2 i = Cost.x2 (fun k : Fin 4 => a2 (ix2 t k)) := by
  obtain rfl : i = ix2 t (2 : Fin 4) := idx2_ext h0 h1
  unfold val_main_v101
  refine ((stack4_at (val_main_v97 (F := Ideal) a2) (val_main_v98 (F := Ideal) a2) (val_main_v99 (F := Ideal) a2)
    (val_main_v100 (F := Ideal) a2) concatenates_S1600x1_S1600x1_S1600x1_S1600x1_S1600x4_d1 t).2.2.1).trans ?_
  rw [val_main_v99_apply, show idx_main_v99 (ix2 t (0 : Fin 1)) = ix1 t from idx1_ext rfl]
  exact t_x2 a2 t

/-- Column 3 of the stacked target corners is the y2 edge. -/
theorem tc_y2 (a2 : TArr) (t : Fin 1600) (i : S1600x4.Idx) (h0 : (i 0).val = t.val) (h1 : (i 1).val = 3) :
    val_main_v101 (F := Ideal) a2 i = Cost.y2 (fun k : Fin 4 => a2 (ix2 t k)) := by
  obtain rfl : i = ix2 t (3 : Fin 4) := idx2_ext h0 h1
  unfold val_main_v101
  refine ((stack4_at (val_main_v97 (F := Ideal) a2) (val_main_v98 (F := Ideal) a2) (val_main_v99 (F := Ideal) a2)
    (val_main_v100 (F := Ideal) a2) concatenates_S1600x1_S1600x1_S1600x1_S1600x1_S1600x4_d1 t).2.2.2).trans ?_
  rw [val_main_v100_apply, show idx_main_v100 (ix2 t (0 : Fin 1)) = ix1 t from idx1_ext rfl]
  exact t_y2 a2 t

/-- The area of query box `r`, from its stacked corners. -/
theorem q_area (a1 : QArr) (r : Fin 14400) (i : S14400.Idx) (h : (i 0).val = r.val) :
    val_main_v112 (F := Ideal) a1 i = Cost.area (fun k : Fin 4 => val_main_v7 (F := Ideal) a1 (ix2 r k)) := by
  obtain rfl : i = ix1 r := idx1_ext h
  simp only [val_main_v112_apply, val_main_v106_apply, val_main_v111_apply, val_main_v103_apply, val_main_v102_apply,
    val_main_v105_apply, val_main_v104_apply, val_main_v108_apply, val_main_v107_apply, val_main_v110_apply,
    val_main_v109_apply, Ideal.mulf_def, Ideal.subf_def]
  unfold Cost.area
  refine congrArg₂ (· * ·) (congrArg₂ (· - ·) (qc_x2 a1 r _ ?_ ?_) (qc_x1 a1 r _ ?_ ?_))
    (congrArg₂ (· - ·) (qc_y2 a1 r _ ?_ ?_) (qc_y1 a1 r _ ?_ ?_))
  all_goals first | rfl | exact Nat.div_one _

/-- The area of target box `t`, from its stacked corners. -/
theorem t_area (a2 : TArr) (t : Fin 1600) (i : S1600.Idx) (h : (i 0).val = t.val) :
    val_main_v123 (F := Ideal) a2 i = Cost.area (fun k : Fin 4 => a2 (ix2 t k)) := by
  obtain rfl : i = ix1 t := idx1_ext h
  simp only [val_main_v123_apply, val_main_v117_apply, val_main_v122_apply, val_main_v114_apply, val_main_v113_apply,
    val_main_v116_apply, val_main_v115_apply, val_main_v119_apply, val_main_v118_apply, val_main_v121_apply,
    val_main_v120_apply, Ideal.mulf_def, Ideal.subf_def]
  unfold Cost.area
  refine congrArg₂ (· * ·) (congrArg₂ (· - ·) (tc_x2 a2 t _ ?_ ?_) (tc_x1 a2 t _ ?_ ?_))
    (congrArg₂ (· - ·) (tc_y2 a2 t _ ?_ ?_) (tc_y1 a2 t _ ?_ ?_))
  all_goals first | rfl | exact Nat.div_one _

/-! ## The generalised IoU -/

/-- The overlap area of a box `p` and a box given by its corners. -/
def interOf (p : Fin 4 → EReal) (c1 d1 c2 d2 : EReal) : EReal :=
  max (min (Cost.x2 p) c2 - max (Cost.x1 p) c1) Cost.W0 * max (min (Cost.y2 p) d2 - max (Cost.y1 p) d1) Cost.W0

/-- The area of the smallest box holding both. -/
def hullOf (p : Fin 4 → EReal) (c1 d1 c2 d2 : EReal) : EReal :=
  max (max (Cost.x2 p) c2 - min (Cost.x1 p) c1) Cost.W0 * max (max (Cost.y2 p) d2 - min (Cost.y1 p) d1) Cost.W0

/-- The area of the union: the two areas less the overlap. -/
def unionOf (p : Fin 4 → EReal) (c1 d1 c2 d2 ar : EReal) : EReal := (Cost.area p + ar) - interOf p c1 d1 c2 d2

/-- The generalised IoU in these three quantities. -/
theorem giouC_eq (p : Fin 4 → EReal) (c1 d1 c2 d2 ar : EReal) :
    Cost.giouC p c1 d1 c2 d2 ar
      = Ideal.div (interOf p c1 d1 c2 d2) (unionOf p c1 d1 c2 d2 ar + Cost.Weps)
        - Ideal.div (hullOf p c1 d1 c2 d2 - unionOf p c1 d1 c2 d2 ar) (hullOf p c1 d1 c2 d2 + Cost.Weps) := rfl

/-- The clipped horizontal extent of the overlap of query box `r` and target box `t`. -/
theorem overlap_w (a1 : QArr) (a2 : TArr) (r : Fin 14400) (t : Fin 1600) (i : S14400x1600x2.Idx) (h0 : (i 0).val = r.val)
    (h1 : (i 1).val = t.val) (h2 : (i 2).val = 0) :
    val_main_v139 (F := Ideal) a1 a2 i
      = max (min (Cost.x2 (fun k : Fin 4 => val_main_v7 (F := Ideal) a1 (ix2 r k))) (Cost.x2 (fun k : Fin 4 => a2 (ix2 t k))) - max (Cost.x1 (fun k : Fin 4 => val_main_v7 (F := Ideal) a1 (ix2 r k))) (Cost.x1 (fun k : Fin 4 => a2 (ix2 t k)))) Cost.W0 := by
  obtain rfl : i = ix3 r t (0 : Fin 2) := idx3_ext h0 h1 h2
  simp only [val_main_v139_apply, val_main_call0_v1_apply, val_main_call0_v0_apply, val_main_cst_21_apply,
    val_main_v138_apply, val_main_v137_apply, val_main_v135_apply, val_main_v132_apply, val_main_v131_apply,
    val_main_v136_apply, val_main_v134_apply, val_main_v133_apply, val_main_v130_apply, val_main_v128_apply,
    val_main_v125_apply, val_main_v124_apply, val_main_v129_apply, val_main_v127_apply, val_main_v126_apply,
    Ideal.maximumf_def, Ideal.minimumf_def, Ideal.subf_def, Ideal.ofBits_def]
  refine (max_comm _ _).trans ?_
  refine congrArg₂ (fun u v : EReal => max u v)
    (congrArg₂ (fun u v : EReal => u - v)
      (congrArg₂ (fun u v : EReal => min u v) (qc_x2 a1 r _ ?_ ?_) (tc_x2 a2 t _ ?_ ?_))
      (congrArg₂ (fun u v : EReal => max u v) (qc_x1 a1 r _ ?_ ?_) (tc_x1 a2 t _ ?_ ?_))) rfl
  all_goals rfl

/-- The clipped vertical extent of the overlap. -/
theorem overlap_h (a1 : QArr) (a2 : TArr) (r : Fin 14400) (t : Fin 1600) (i : S14400x1600x2.Idx) (h0 : (i 0).val = r.val)
    (h1 : (i 1).val = t.val) (h2 : (i 2).val = 1) :
    val_main_v139 (F := Ideal) a1 a2 i
      = max (min (Cost.y2 (fun k : Fin 4 => val_main_v7 (F := Ideal) a1 (ix2 r k))) (Cost.y2 (fun k : Fin 4 => a2 (ix2 t k))) - max (Cost.y1 (fun k : Fin 4 => val_main_v7 (F := Ideal) a1 (ix2 r k))) (Cost.y1 (fun k : Fin 4 => a2 (ix2 t k)))) Cost.W0 := by
  obtain rfl : i = ix3 r t (1 : Fin 2) := idx3_ext h0 h1 h2
  simp only [val_main_v139_apply, val_main_call0_v1_apply, val_main_call0_v0_apply, val_main_cst_21_apply,
    val_main_v138_apply, val_main_v137_apply, val_main_v135_apply, val_main_v132_apply, val_main_v131_apply,
    val_main_v136_apply, val_main_v134_apply, val_main_v133_apply, val_main_v130_apply, val_main_v128_apply,
    val_main_v125_apply, val_main_v124_apply, val_main_v129_apply, val_main_v127_apply, val_main_v126_apply,
    Ideal.maximumf_def, Ideal.minimumf_def, Ideal.subf_def, Ideal.ofBits_def]
  refine (max_comm _ _).trans ?_
  refine congrArg₂ (fun u v : EReal => max u v)
    (congrArg₂ (fun u v : EReal => u - v)
      (congrArg₂ (fun u v : EReal => min u v) (qc_y2 a1 r _ ?_ ?_) (tc_y2 a2 t _ ?_ ?_))
      (congrArg₂ (fun u v : EReal => max u v) (qc_y1 a1 r _ ?_ ?_) (tc_y1 a2 t _ ?_ ?_))) rfl
  all_goals rfl

/-- The clipped horizontal extent of the smallest box holding both. -/
theorem hull_w (a1 : QArr) (a2 : TArr) (r : Fin 14400) (t : Fin 1600) (i : S14400x1600x2.Idx) (h0 : (i 0).val = r.val)
    (h1 : (i 1).val = t.val) (h2 : (i 2).val = 0) :
    val_main_v169 (F := Ideal) a1 a2 i
      = max (max (Cost.x2 (fun k : Fin 4 => val_main_v7 (F := Ideal) a1 (ix2 r k))) (Cost.x2 (fun k : Fin 4 => a2 (ix2 t k))) - min (Cost.x1 (fun k : Fin 4 => val_main_v7 (F := Ideal) a1 (ix2 r k))) (Cost.x1 (fun k : Fin 4 => a2 (ix2 t k)))) Cost.W0 := by
  obtain rfl : i = ix3 r t (0 : Fin 2) := idx3_ext h0 h1 h2
  simp only [val_main_v169_apply, val_main_call1_v1_apply, val_main_call1_v0_apply, val_main_cst_23_apply,
    val_main_v168_apply, val_main_v167_apply, val_main_v165_apply, val_main_v162_apply, val_main_v161_apply,
    val_main_v166_apply, val_main_v164_apply, val_main_v163_apply, val_main_v160_apply, val_main_v158_apply,
    val_main_v155_apply, val_main_v154_apply, val_main_v159_apply, val_main_v157_apply, val_main_v156_apply,
    Ideal.maximumf_def, Ideal.minimumf_def, Ideal.subf_def, Ideal.ofBits_def]
  refine (max_comm _ _).trans ?_
  refine congrArg₂ (fun u v : EReal => max u v)
    (congrArg₂ (fun u v : EReal => u - v)
      (congrArg₂ (fun u v : EReal => max u v) (qc_x2 a1 r _ ?_ ?_) (tc_x2 a2 t _ ?_ ?_))
      (congrArg₂ (fun u v : EReal => min u v) (qc_x1 a1 r _ ?_ ?_) (tc_x1 a2 t _ ?_ ?_))) rfl
  all_goals rfl

/-- The clipped vertical extent of the smallest box holding both. -/
theorem hull_h (a1 : QArr) (a2 : TArr) (r : Fin 14400) (t : Fin 1600) (i : S14400x1600x2.Idx) (h0 : (i 0).val = r.val)
    (h1 : (i 1).val = t.val) (h2 : (i 2).val = 1) :
    val_main_v169 (F := Ideal) a1 a2 i
      = max (max (Cost.y2 (fun k : Fin 4 => val_main_v7 (F := Ideal) a1 (ix2 r k))) (Cost.y2 (fun k : Fin 4 => a2 (ix2 t k))) - min (Cost.y1 (fun k : Fin 4 => val_main_v7 (F := Ideal) a1 (ix2 r k))) (Cost.y1 (fun k : Fin 4 => a2 (ix2 t k)))) Cost.W0 := by
  obtain rfl : i = ix3 r t (1 : Fin 2) := idx3_ext h0 h1 h2
  simp only [val_main_v169_apply, val_main_call1_v1_apply, val_main_call1_v0_apply, val_main_cst_23_apply,
    val_main_v168_apply, val_main_v167_apply, val_main_v165_apply, val_main_v162_apply, val_main_v161_apply,
    val_main_v166_apply, val_main_v164_apply, val_main_v163_apply, val_main_v160_apply, val_main_v158_apply,
    val_main_v155_apply, val_main_v154_apply, val_main_v159_apply, val_main_v157_apply, val_main_v156_apply,
    Ideal.maximumf_def, Ideal.minimumf_def, Ideal.subf_def, Ideal.ofBits_def]
  refine (max_comm _ _).trans ?_
  refine congrArg₂ (fun u v : EReal => max u v)
    (congrArg₂ (fun u v : EReal => u - v)
      (congrArg₂ (fun u v : EReal => max u v) (qc_y2 a1 r _ ?_ ?_) (tc_y2 a2 t _ ?_ ?_))
      (congrArg₂ (fun u v : EReal => min u v) (qc_y1 a1 r _ ?_ ?_) (tc_y1 a2 t _ ?_ ?_))) rfl
  all_goals rfl

/-- The overlap area at `(r, t)`. -/
theorem inter_at (a1 : QArr) (a2 : TArr) (r : Fin 14400) (t : Fin 1600) :
    val_main_v144 (F := Ideal) a1 a2 (ix2 r t) = interOf (fun k : Fin 4 => val_main_v7 (F := Ideal) a1 (ix2 r k)) (Cost.x1 (fun k : Fin 4 => a2 (ix2 t k))) (Cost.y1 (fun k : Fin 4 => a2 (ix2 t k))) (Cost.x2 (fun k : Fin 4 => a2 (ix2 t k))) (Cost.y2 (fun k : Fin 4 => a2 (ix2 t k))) := by
  simp only [val_main_v144_apply, val_main_v141_apply, val_main_v140_apply, val_main_v143_apply, val_main_v142_apply,
    Ideal.mulf_def]
  unfold interOf
  refine congrArg₂ (fun u v : EReal => u * v) (overlap_w a1 a2 r t _ ?_ ?_ ?_) (overlap_h a1 a2 r t _ ?_ ?_ ?_)
  all_goals first | exact (split_pair r t).1 | exact (split_pair r t).2 | rfl

/-- The hull area at `(r, t)`. -/
theorem hull_at (a1 : QArr) (a2 : TArr) (r : Fin 14400) (t : Fin 1600) :
    val_main_v174 (F := Ideal) a1 a2 (ix2 r t) = hullOf (fun k : Fin 4 => val_main_v7 (F := Ideal) a1 (ix2 r k)) (Cost.x1 (fun k : Fin 4 => a2 (ix2 t k))) (Cost.y1 (fun k : Fin 4 => a2 (ix2 t k))) (Cost.x2 (fun k : Fin 4 => a2 (ix2 t k))) (Cost.y2 (fun k : Fin 4 => a2 (ix2 t k))) := by
  simp only [val_main_v174_apply, val_main_v171_apply, val_main_v170_apply, val_main_v173_apply, val_main_v172_apply,
    Ideal.mulf_def]
  unfold hullOf
  refine congrArg₂ (fun u v : EReal => u * v) (hull_w a1 a2 r t _ ?_ ?_ ?_) (hull_h a1 a2 r t _ ?_ ?_ ?_)
  all_goals first | exact (split_pair r t).1 | exact (split_pair r t).2 | rfl

/-- The union area at `(r, t)`. -/
theorem union_at (a1 : QArr) (a2 : TArr) (r : Fin 14400) (t : Fin 1600) :
    val_main_v150 (F := Ideal) a1 a2 (ix2 r t) = unionOf (fun k : Fin 4 => val_main_v7 (F := Ideal) a1 (ix2 r k)) (Cost.x1 (fun k : Fin 4 => a2 (ix2 t k))) (Cost.y1 (fun k : Fin 4 => a2 (ix2 t k))) (Cost.x2 (fun k : Fin 4 => a2 (ix2 t k))) (Cost.y2 (fun k : Fin 4 => a2 (ix2 t k))) (Cost.area (fun k : Fin 4 => a2 (ix2 t k))) := by
  rw [val_main_v150_apply, inter_at]
  simp only [val_main_v149_apply, val_main_v147_apply, val_main_v145_apply, val_main_v148_apply, val_main_v146_apply,
    Ideal.subf_def, Ideal.addf_def]
  unfold unionOf
  refine congrArg₂ (fun u v : EReal => u - v)
    (congrArg₂ (fun u v : EReal => u + v) (q_area a1 r _ ?_) (t_area a2 t _ ?_)) rfl
  all_goals rfl

/-- The generalised IoU at `(r, t)`. -/
theorem giou_at (a1 : QArr) (a2 : TArr) (r : Fin 14400) (t : Fin 1600) :
    val_main_v179 (F := Ideal) a1 a2 (ix2 r t) = Cost.giouC (fun k : Fin 4 => val_main_v7 (F := Ideal) a1 (ix2 r k)) (Cost.x1 (fun k : Fin 4 => a2 (ix2 t k))) (Cost.y1 (fun k : Fin 4 => a2 (ix2 t k))) (Cost.x2 (fun k : Fin 4 => a2 (ix2 t k))) (Cost.y2 (fun k : Fin 4 => a2 (ix2 t k))) (Cost.area (fun k : Fin 4 => a2 (ix2 t k))) := by
  rw [giouC_eq, val_main_v179_apply, val_main_v153_apply, val_main_v178_apply, val_main_v152_apply, val_main_v151_apply,
    val_main_cst_22_apply, val_main_v175_apply, val_main_v177_apply, val_main_v176_apply, val_main_cst_24_apply, union_at,
    inter_at, hull_at]
  rfl

/-! ## The cost -/

/-- The cost at row `r` and target `t` of the flattened arrays. -/
theorem cost_at (a0 a1 : QArr) (a2 : TArr) (a3 : LArr) (r : Fin 14400) (t : Fin 1600) :
    val_main_v188 (F := Ideal) a0 a1 a2 a3 (ix2 r t)
      = Cost.costSel (fun k : Fin 4 => val_main_v0 (F := Ideal) a0 (ix2 r k)) (fun k : Fin 4 => val_main_v7 (F := Ideal) a1 (ix2 r k)) (fun k : Fin 4 => a2 (ix2 t k)) (selIdx (a3 (ix1 t))) := by
  rw [val_main_v188_apply, val_main_v185_apply, val_main_v182_apply, val_main_v181_apply, val_main_cst_25_apply,
    val_main_v184_apply, val_main_v183_apply, val_main_cst_26_apply, val_main_v187_apply, val_main_v186_apply,
    val_main_cst_27_apply, val_main_v180_apply, l1_at, cls_at, giou_at]
  rfl

/-- THE REFERENCE'S RESULT AT `(b, qq, t)`: the matching cost of query `qq` of batch `b` against target `t`, in the
    selected-entry reading, at the class the target's label selects. -/
theorem ref_apply (a0 a1 : (⟨S16x900x4, .f32⟩ : BufTy).Contents (Elt Ideal)) (a2 : (⟨S1600x4, .f32⟩ : BufTy).Contents (Elt Ideal))
    (a3 : (⟨S1600, .i32⟩ : BufTy).Contents (Elt Ideal)) (b : Fin 16) (qq : Fin 900) (t : Fin 1600) :
    Cert.ReferenceIdeal.Read.val_main_v189 (F := Ideal) a0 a1 a2 a3 (ix3 b qq t)
      = Cert.Cost.costSel (fun k : Fin 4 => a0 (ix3 b qq k)) (fun k : Fin 4 => a1 (ix3 b qq k))
          (fun k : Fin 4 => a2 (ix2 t k)) (selIdx (a3 (ix1 t))) := by
  have e : idx_main_v189 (ix3 b qq t) = ix2 (row b qq) t :=
    idx2_ext
      (by show ((b.val * 900 + qq.val) * 1600 + t.val) / 1600 = b.val * 900 + qq.val
          have := t.isLt; omega)
      (by show ((b.val * 900 + qq.val) * 1600 + t.val) % 1600 = t.val
          have := t.isLt; omega)
  have eL : (fun k : Fin 4 => val_main_v0 (F := Ideal) a0 (ix2 (row b qq) k)) = fun k : Fin 4 => a0 (ix3 b qq k) :=
    funext fun k => logits_row a0 b qq k
  have eP : (fun k : Fin 4 => val_main_v7 (F := Ideal) a1 (ix2 (row b qq) k)) = fun k : Fin 4 => a1 (ix3 b qq k) :=
    funext fun k => boxes_row a1 b qq k
  rw [val_main_v189_apply, e, cost_at, eL, eP]

end Cert.ReferenceIdeal.RefValue

end
-- ==== Proof.Algebra.lean ====
/-
  The two readings of the matching cost agree.

  The selected-entry reading writes squares as powers with exponent the word of 2, negates the logarithm, sums the
  L1 distance from the zero word and carries unit weights; the dot-product reading writes squares as products,
  subtracts the logarithm from the zero word, and contracts the four per-class differences with a 0/1 indicator row
  of the label. Over the extended reals these agree term by term:
    * the class probability is a real number whatever the logit (0 at -∞, 1 at +∞), hence so is its complement,
      and a real to the real power 2 is its square;
    * `0 - x = -x` and `0 + x = x`, `1 * x = x`;
    * the indicator row of the label `k` is 1 at `k` and 0 elsewhere, so the contraction keeps the entry `k` only.
-/
import proofs.«415464_j68289980007125_3_alg».proof.Proof.Spec
import Idealize.ShloMosaic.PureOps.Ideal.Laws
import Idealize.ShloMosaic.Lib.IdealHost
import Mathlib.Analysis.SpecialFunctions.Pow.Real
import Mathlib.Algebra.BigOperators.Fin

noncomputable section

namespace Cert.Cost

open Idealize.ShloMosaic

/-! ## The words of 0, 1 and 2 -/

theorem W0_eq : W0 = 0 := Ideal.ofBits_zero_f32

theorem W1_eq : W1 = 1 := Ideal.ofBits_one_f32

theorem W2_eq : W2 = ((2 : ℝ) : EReal) := by
  simp [Ideal.ofBits, Ideal.ieee, -EReal.coe_mul]; norm_num

/-! ## Squares: a power with exponent 2 against a product -/

/-- The class probability is a real number at every extended-real logit. -/
theorem prob_real (l : EReal) : ∃ s : ℝ, prob l = (s : EReal) := by
  induction l using EReal.rec with
  | bot => exact ⟨0, by rw [prob, Ideal.logistic_bot, EReal.coe_zero]⟩
  | coe r => exact ⟨(1 + Real.exp (-r))⁻¹, by rw [prob, Ideal.logistic_coe]⟩
  | top => exact ⟨1, by rw [prob, Ideal.logistic_top, EReal.coe_one]⟩

/-- A real number to the power the word of 2 is its square. -/
theorem pow_W2_coe (s : ℝ) : Ideal.pow (s : EReal) W2 = (s : EReal) * (s : EReal) := by
  rw [W2_eq, Ideal.pow_coe_coe, ← EReal.coe_mul]
  congr 1
  show s ^ (2 : ℝ) = s * s
  rw [Real.rpow_two, sq]

/-- The complement of a real probability is a real number. -/
theorem W1_sub_coe (s : ℝ) : W1 - (s : EReal) = ((1 - s : ℝ) : EReal) := by
  rw [W1_eq, ← EReal.coe_one, ← EReal.coe_sub]

theorem W0_sub (x : EReal) : W0 - x = -x := by rw [W0_eq, zero_sub]

theorem posPow_eq_posMul (l : EReal) : posPow l = posMul l := by
  obtain ⟨s, hs⟩ := prob_real l
  rw [posPow, posMul, hs, W1_sub_coe, pow_W2_coe, W0_sub]

theorem negPow_eq_negMul (l : EReal) : negPow l = negMul l := by
  obtain ⟨s, hs⟩ := prob_real l
  rw [negPow, negMul, hs, pow_W2_coe, W0_sub]

/-! ## The L1 distance -/

theorem l1Sum_eq_l1 (p t : Fin 4 → EReal) : l1Sum p t = l1 p t := by
  rw [l1Sum, l1, W0_eq, zero_add, Fin.sum_univ_four]

/-! ## The contraction with the indicator row -/

/-- Two classes have the same 32-bit word only if they are the same class. -/
theorem ofNat_eq_iff (k c : Fin 4) : BitVec.ofNat 32 k.val = BitVec.ofNat 32 c.val ↔ k = c := by
  revert k c; decide

theorem indic_self (k : Fin 4) : indic (BitVec.ofNat 32 k.val) k = 1 := by
  rw [indic, if_pos rfl, Nat.cast_one, EReal.coe_one]

theorem indic_ne (k c : Fin 4) (h : c ≠ k) : indic (BitVec.ofNat 32 k.val) c = 0 := by
  have hne : ¬ BitVec.ofNat 32 k.val = BitVec.ofNat 32 c.val := fun e => h ((ofNat_eq_iff k c).mp e).symm
  rw [indic, if_neg hne, Nat.cast_zero, EReal.coe_zero]

/-- Against the indicator row of the label `k` the contraction keeps the difference of class `k`. -/
theorem clsDot_indic (l : Fin 4 → EReal) (lab : BitVec 32) (k : Fin 4) (hk : lab = BitVec.ofNat 32 k.val) :
    clsDot l (indic lab) = difMul (l k) := by
  subst hk
  rw [clsDot, Finset.sum_eq_single k]
  · rw [indic_self, mul_one]
  · intro c _ hc
    rw [indic_ne k c hc, mul_zero]
  · intro h
    exact absurd (Finset.mem_univ k) h

/-! ## The cost -/

theorem costSel_eq_costDot (l p t : Fin 4 → EReal) (lab : BitVec 32) (k : Fin 4) (hk : lab = BitVec.ofNat 32 k.val) :
    costSel l p t k = costDot l p t (indic lab) (x1 t) (y1 t) (x2 t) (y2 t) (area t) := by
  rw [costSel, costDot, clsDot_indic l lab k hk, difMul, W1_eq, one_mul, one_mul, one_mul, l1Sum_eq_l1,
    posPow_eq_posMul, negPow_eq_negMul, ← sub_eq_add_neg, add_comm (l1 p t)]

end Cert.Cost

end
-- ==== Proof.PreLabels.lean ====
/-
  The precondition of the matching-cost certificate, read back at one target. The predicate is the conjunction of five
  "all elements satisfy" reductions: three say the float inputs are finite, the last two say every target label ℓ
  satisfies 0 ≤ ℓ (signed) and ℓ < 4 (signed). From the predicate being the word 1 we recover, for each of the 1600
  targets, that its label is one of the four class words 0, 1, 2, 3.

  The steps: a one-bit "and" is 1 only when both operands are 1, so the conjunction splits; a reduction by "and" from the
  constant 1 that comes out 1 met only 1s, so each compared position holds 1; a signed compare of two words is the
  comparison of their signed values, and a broadcast scalar reads the scalar at every position. A 32-bit word whose signed
  value lies in [0, 4) has unsigned value in [0, 4) too, hence is the word of that natural number.
-/
import proofs.«415464_j68289980007125_3_alg».proof.Pre_finite_inputs
import Idealize.ShloMosaic.Lib.ReduceAll
import Idealize.ShloMosaic.Lib.StableHlo.Predicate
import Idealize.ShloMosaic.Lib.ValueIdx

namespace Cert.Pre_finite_inputs.Labels

open Idealize.ShloMosaic Idealize.ShloMosaic.ValueIdx

/-- The scalar shape has exactly one index. -/
instance scalarIdx_subsingleton : Subsingleton S_.Idx := ⟨fun a b => funext fun d => d.elim0⟩

/-- A 32-bit word whose signed value is at least that of the word 0 and below that of the word 4 is the word of a
    natural number below 4. -/
theorem word_of_signed_range (w : BitVec 32) (h0 : (0#32).toInt ≤ w.toInt) (h4 : w.toInt < (4#32).toInt) :
    ∃ k : Fin 4, w = BitVec.ofNat 32 k.val := by
  have e0 : (0#32).toInt = 0 := by decide
  have e4 : (4#32).toInt = 4 := by decide
  rw [e0] at h0
  rw [e4] at h4
  have hlt := w.isLt
  have hn : w.toNat < 4 := by
    rw [BitVec.toInt_eq_toNat_cond] at h0 h4
    split at h0 <;> omega
  refine ⟨⟨w.toNat, hn⟩, BitVec.eq_of_toNat_eq ?_⟩
  simp only [BitVec.toNat_ofNat]
  omega

/-- Every target label is one of the four class words: the predicate being 1 forces 0 ≤ ℓ < 4 (signed) at each target. -/
theorem label_class {F : FTy → Type} [FloatOps F] [Cert.Pre_finite_inputs.Facts] (a0 a1 : FVec F S16x900x4 .f32) (a2 : FVec F S1600x4 .f32) (a3 : IVec S1600 32)
    (h : Cert.Pre_finite_inputs.fn (F := F) a0 a1 a2 a3 = fun _ => 1#1) (j : Fin 1600) :
    ∃ k : Fin 4, a3 (Idealize.ShloMosaic.ValueIdx.ix1 j) = BitVec.ofNat 32 k.val := by
  have e := congrFun h ix0
  unfold Cert.Pre_finite_inputs.fn Cert.Pre_finite_inputs.fn_part1 at e
  dsimp only at e
  -- the conjunction is 1: so are its last two members, the two reductions over the labels
  obtain ⟨e1, hlt⟩ := IntOp.andi_eq_one.1 e
  obtain ⟨-, hge⟩ := IntOp.andi_eq_one.1 e1
  -- each reduction met only 1s: the two compares hold at target j
  have hge' := Host.reduce_andi_all _ _ _ _ _ hge (ix1 j)
  have hlt' := Host.reduce_andi_all _ _ _ _ _ hlt (ix1 j)
  -- a compare at a position is the compare of the two words there; the broadcast constant reads the constant
  have hge'' : IntOp.cmpi .sge (a3 (ix1 j)) (0#32) = 1#1 := hge'
  have hlt'' : IntOp.cmpi .slt (a3 (ix1 j)) (4#32) = 1#1 := hlt'
  exact word_of_signed_range _ (IntOp.cmpi_sge.1 hge'') (IntOp.cmpi_slt.1 hlt'')

end Cert.Pre_finite_inputs.Labels
-- ==== Proof.lean ====
/-
  The certificate of the matching-cost kernel against its jnp reference.

  Both programs compute, for each of 16 × 900 queries and each of 1600 targets, the sum of a focal classification
  term, the L1 distance of the two boxes, and minus their generalised IoU. The kernel reads the classification term as
  a four-term dot product of the per-class differences with a 0/1 indicator row of the target's label, tabulates each
  target's corners and area once, and writes squares as products; the reference selects the entry at the label,
  computes the corners in place, writes squares as powers with exponent 2 and carries unit weights. Over the extended
  reals the two readings are one function of the arguments as soon as every label is one of the four classes, which
  the precondition states: then the indicator row selects exactly the entry the reference gathers.

  The three frames are the programs' runs with the result dropped; the idealization rewrote nothing, so `preserves`
  is trivial.
-/
import proofs.«415464_j68289980007125_3_alg».proof.Defs
import proofs.«415464_j68289980007125_3_alg».proof.Proof.Gen.Kernel
import proofs.«415464_j68289980007125_3_alg».proof.Proof.Gen.KernelIdeal
import proofs.«415464_j68289980007125_3_alg».proof.Proof.Gen.ReferenceIdeal
import proofs.«415464_j68289980007125_3_alg».proof.Proof.Gen.Pre_finite_inputs
import proofs.«415464_j68289980007125_3_alg».proof.Proof.Gen.ReferenceIdeal.Run
import proofs.«415464_j68289980007125_3_alg».proof.Proof.Gen.ReferenceIdeal.Read
import proofs.«415464_j68289980007125_3_alg».proof.Proof.KFrame
import proofs.«415464_j68289980007125_3_alg».proof.Proof.KIFrame
import proofs.«415464_j68289980007125_3_alg».proof.Proof.KIValue
import proofs.«415464_j68289980007125_3_alg».proof.Proof.RefValue
import proofs.«415464_j68289980007125_3_alg».proof.Proof.Algebra
import proofs.«415464_j68289980007125_3_alg».proof.Proof.PreLabels
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's result, entry by entry, is the kernel's cost function of the same arguments when every label is a
    class: the label's class `k` is what the reference's gather selects, and at that class the selected-entry reading
    is the dot-product reading. -/
theorem reference_eq_kernelCost (a0 a1 : (⟨Cert.ReferenceIdeal.S16x900x4, .f32⟩ : BufTy).Contents (Elt Ideal))
    (a2 : (⟨Cert.ReferenceIdeal.S1600x4, .f32⟩ : BufTy).Contents (Elt Ideal))
    (a3 : (⟨Cert.ReferenceIdeal.S1600, .i32⟩ : BufTy).Contents (Elt Ideal))
    (hlab : ∀ j : Fin 1600, ∃ k : Fin 4, a3 (ix1 j) = BitVec.ofNat 32 k.val) :
    Cert.ReferenceIdeal.Read.val_main_v189 (F := Ideal) a0 a1 a2 a3 = Cert.KernelIdeal.Hand.kernelCost a0 a1 a2 a3 := by
  funext i
  obtain ⟨b, qq, t, rfl⟩ : ∃ (b : Fin 16) (qq : Fin 900) (t : Fin 1600), i = ix3 b qq t := ⟨i 0, i 1, i 2, eq_ix3 i⟩
  obtain ⟨k, hk⟩ := hlab t
  rw [Cert.ReferenceIdeal.RefValue.ref_apply, hk, Cert.ReferenceIdeal.RefValue.selIdx_ofNat,
    Cert.Cost.costSel_eq_costDot _ _ _ (a3 (ix1 t)) k hk]
  rfl

theorem algebraic : Cert.algebraic_KernelIdeal_ReferenceIdeal := by
  intro m ρ m' ρ' hpre hagree
  refine ⟨fun c => Cert.KernelIdeal.Hand.kernelCost (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)), Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v189_eq, (hagree c).1, (hagree c).2.1, (hagree c).2.2.1, (hagree c).2.2.2]
  exact reference_eq_kernelCost _ _ _ _ fun j =>
    Cert.Pre_finite_inputs.Labels.label_class _ _ _ _ (hpre c) j

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
